-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S3200000 : Shape := ⟨1, ![3200000]⟩
abbrev S3200000x1 : Shape := ⟨2, ![3200000, 1]⟩
abbrev S64 : Shape := ⟨1, ![64]⟩
abbrev S64x64 : Shape := ⟨2, ![64, 64]⟩
abbrev S_ : Shape := ⟨0, ![]⟩
abbrev S1x3200000 : Shape := ⟨2, ![1, 3200000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S3200000x1 : S_.BroadcastsInDim S3200000x1 (![] : Fin 0 → Fin S3200000x1.rank)
  reducesTo_S3200000x1_S_d0_1 : S3200000x1.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  slices_S2x3200000_S1x3200000_1_0 : S2x3200000.Slices ![1, 0] S1x3200000
  shapeCasts_S1x3200000_S3200000 : S1x3200000.ShapeCasts S3200000

variable [Facts]

def fn_part3 {F : FTy → Type} [FloatOps F] (main_arg1 : IVec S2x3200000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : IVec S1x3200000 32 := (extractStridedSlice S1x3200000 ![1, 0] · slices_S2x3200000_S1x3200000_1_0) main_arg1
  let main_v55 : IVec S3200000 32 := shapeCast S3200000 main_v54 shapeCasts_S1x3200000_S3200000
  let main_c_20 : IVec S_ 32 := constantI S_ 32 0#32
  let main_v56 : IVec S3200000 32 := broadcastInDim S3200000 ![] bcast_S_S3200000 main_c_20
  let main_v57 : IVec S3200000 1 := cmpi .sge main_v55 main_v56
  let main_v58 : IVec S1x3200000 32 := (extractStridedSlice S1x3200000 ![1, 0] · slices_S2x3200000_S1x3200000_1_0) main_arg1
  let main_v59 : IVec S3200000 32 := shapeCast S3200000 main_v58 shapeCasts_S1x3200000_S3200000
  let main_c_21 : IVec S_ 32 := constantI S_ 32 100000#32
  let main_v60 : IVec S3200000 32 := broadcastInDim S3200000 ![] bcast_S_S3200000 main_c_21
  let main_v61 : IVec S3200000 1 := cmpi .slt main_v59 main_v60
  let main_v62 : IVec S3200000 1 := andi main_v57 main_v61
  let main_c_22 : IVec S_ 1 := constantI S_ 1 1#1
  let main_v63 : IVec S_ 1 := (fun x v => Host.reduce IntOp.andi x v reducesTo_S3200000_S_d0 h_S_) main_v62 main_c_22
  let main_v64 : IVec S_ 1 := andi main_v53 main_v63
  main_v64

def fn_part2 {F : FTy → Type} [FloatOps F] (main_arg1 : IVec S2x3200000 32) (main_arg8 : FVec F S64x64 .f32) (main_arg9 : FVec F S64 .f32) (main_arg10 : FVec F S64x64 .f32) (main_arg11 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_v48 main_v49 main_v50

def fn_part1 {F : FTy → Type} [FloatOps F] (main_arg1 : IVec S2x3200000 32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S100000x64 .f32) (main_arg1 : IVec S2x3200000 32) (main_arg2 : FVec F S3200000 .f32) (main_arg3 : FVec F S3200000x1 .f32) (main_arg4 : FVec F S64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S3200000x1 .f32 := Host.absf main_arg3
  let main_cst_2 : FVec F S_ .f32 := constant S_ .f32 0x7F800000#32
  let main_v10 : FVec F S3200000x1 .f32 := broadcastInDim S3200000x1 ![] bcast_S_S3200000x1 main_cst_2
  let main_v11 : IVec S3200000x1 1 := cmpf .olt main_v9 main_v10
  let main_c_3 : IVec S_ 1 := constantI S_ 1 1#1
  let main_v12 : IVec S_ 1 := (fun x v => Host.reduce IntOp.andi x v reducesTo_S3200000x1_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_arg11 main_v13 main_v16
-- ==== Kernel.lean ====
abbrev S100000x64 : Shape := ⟨2, ![100000, 64]⟩
abbrev S2x3200000 : Shape := ⟨2, ![2, 3200000]⟩
abbrev S3200000 : Shape := ⟨1, ![3200000]⟩
abbrev S3200000x1 : Shape := ⟨2, ![3200000, 1]⟩
abbrev S64 : Shape := ⟨1, ![64]⟩
abbrev S64x64 : Shape := ⟨2, ![64, 64]⟩
abbrev S1x3200000 : Shape := ⟨2, ![1, 3200000]⟩
abbrev S_ : Shape := ⟨0, ![]⟩
abbrev S64x1 : Shape := ⟨2, ![64, 1]⟩
abbrev S1x1 : Shape := ⟨2, ![1, 1]⟩
abbrev S1x12800 : Shape := ⟨2, ![1, 12800]⟩
abbrev S64x12800 : Shape := ⟨2, ![64, 12800]⟩
abbrev S12800 : Shape := ⟨1, ![12800]⟩
abbrev S1 : Shape := ⟨1, ![1]⟩
abbrev S3200000x64 : Shape := ⟨2, ![3200000, 64]⟩
abbrev S1x64 : Shape := ⟨2, ![1, 64]⟩
abbrev S10000x64 : Shape := ⟨2, ![10000, 64]⟩

abbrev nBuf : Space → Nat
  | .hbm => 67
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S3200000, .f32⟩
  | .hbm, ⟨3, _⟩ => ⟨S3200000x1, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S1x3200000, .i32⟩
  | .hbm, ⟨13, _⟩ => ⟨S3200000, .i32⟩
  | .hbm, ⟨14, _⟩ => ⟨S1x3200000, .i32⟩
  | .hbm, ⟨15, _⟩ => ⟨S3200000, .i32⟩
  | .hbm, ⟨16, _⟩ => ⟨S_, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S1x3200000, .f32⟩
  | .hbm, ⟨21, _⟩ => ⟨S64x1, .f32⟩
  | .hbm, ⟨22, _⟩ => ⟨S64x1, .f32⟩
  | .hbm, ⟨23, _⟩ => ⟨S64x1, .f32⟩
  | .hbm, ⟨24, _⟩ => ⟨S1x1, .f32⟩
  | .hbm, ⟨25, _⟩ => ⟨S1x3200000, .f32⟩
  | .hbm, ⟨26, _⟩ => ⟨S3200000, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S1, .i32⟩
  | .hbm, ⟨36, _⟩ => ⟨S_, .i32⟩
  | .hbm, ⟨37, _⟩ => ⟨S3200000x1, .i32⟩
  | .hbm, ⟨38, _⟩ => ⟨S3200000x1, .i1⟩
  | .hbm, ⟨39, _⟩ => ⟨S1x1, .i32⟩
  | .hbm, ⟨40, _⟩ => ⟨S3200000x1, .i32⟩
  | .hbm, ⟨41, _⟩ => ⟨S3200000x1, .i1⟩
  | .hbm, ⟨42, _⟩ => ⟨S3200000x1, .i1⟩
  | .hbm, ⟨43, _⟩ => ⟨S_, .i1⟩
  | .hbm, ⟨44, _⟩ => ⟨S3200000, .i1⟩
  | .hbm, ⟨45, _⟩ => ⟨S3200000x64, .f32⟩
  | .hbm, ⟨46, _⟩ => ⟨S3200000x64, .i1⟩
  | .hbm, ⟨47, _⟩ => ⟨S_, .f32⟩
  | .hbm, ⟨48, _⟩ => ⟨S3200000x64, .f32⟩
  | .hbm, ⟨49, _⟩ => ⟨S3200000x64, .f32⟩
  | .hbm, ⟨50, _⟩ => ⟨S3200000x1, .f32⟩
  | .hbm, ⟨51, _⟩ => ⟨S3200000x64, .f32⟩
  | .hbm, ⟨52, _⟩ => ⟨S3200000x64, .f32⟩
  | .hbm, ⟨53, _⟩ => ⟨S_, .f32⟩
  | .hbm, ⟨54, _⟩ => ⟨S100000x64, .f32⟩
  | .hbm, ⟨55, _⟩ => ⟨S_, .i32⟩
  | .hbm, ⟨56, _⟩ => ⟨S3200000, .i32⟩
  | .hbm, ⟨57, _⟩ => ⟨S3200000, .i1⟩
  | .hbm, ⟨58, _⟩ => ⟨S_, .i32⟩
  | .hbm, ⟨59, _⟩ => ⟨S3200000, .i32⟩
  | .hbm, ⟨60, _⟩ => ⟨S3200000, .i32⟩
  | .hbm, ⟨61, _⟩ => ⟨S3200000, .i32⟩
  | .hbm, ⟨62, _⟩ => ⟨S3200000x1, .i32⟩
  | .hbm, ⟨63, _⟩ => ⟨S100000x64, .f32⟩
  | .hbm, ⟨64, _⟩ => ⟨S1x64, .f32⟩
  | .hbm, ⟨65, _⟩ => ⟨S1x64, .f32⟩
  | .hbm, ⟨66, _⟩ => ⟨S100000x64, .f32⟩
  | .local _ .vmem, ⟨0, _⟩ => ⟨S1x12800, .f32⟩
  | .local _ .vmem, ⟨1, _⟩ => ⟨S1x12800, .f32⟩
  | .local _ .vmem, ⟨2, _⟩ => ⟨S64x1, .f32⟩
  | .local _ .vmem, ⟨3, _⟩ => ⟨S64x1, .f32⟩
  | .local _ .vmem, ⟨4, _⟩ => ⟨S64x1, .f32⟩
  | .local _ .vmem, ⟨5, _⟩ => ⟨S1x1, .f32⟩
  | .local _ .vmem, ⟨6, _⟩ => ⟨S1x12800, .f32⟩
  | .local _ .vmem, ⟨7, _⟩ => ⟨S1x12800, .f32⟩
  | .local _ .vmem, ⟨8, _⟩ => ⟨S10000x64, .f32⟩
  | .local _ .vmem, ⟨9, _⟩ => ⟨S10000x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_cst_1 : Ref sig .tc := ⟨.hbm, 53, rfl⟩
abbrev main_v17 : Ref sig .tc := ⟨.hbm, 54, rfl⟩
abbrev main_c : Ref sig .tc := ⟨.hbm, 55, rfl⟩
abbrev main_v18 : Ref sig .tc := ⟨.hbm, 56, rfl⟩
abbrev main_v19 : Ref sig .tc := ⟨.hbm, 57, rfl⟩
abbrev main_c_2 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x12800 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  reducesTo_S64x64_S64_d1 : S64x64.ReducesTo [1] S64
  h_S_ : 0 < S_.numel
  reducesTo_S64_S_d0 : S64.ReducesTo [0] S_
  shapeCasts_S3200000_S1x3200000 : S3200000.ShapeCasts S1x3200000
  shapeCasts_S64_S64x1 : S64.ShapeCasts S64x1
  shapeCasts_S_S1x1 : S_.ShapeCasts S1x1
  inb_S1x12800_S1x12800_0_0 : ∀ a, (![0, 0] : Fin 2 → Nat) a + S1x12800.size a ≤ S1x12800.size a
  h_S1x12800 : 0 < S1x12800.numel
  shapeCasts_S1x12800_S1x12800 : S1x12800.ShapeCasts S1x12800
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S1x12800_S64x12800 : S1x12800.Broadcasts S64x12800
  broadcasts_S64x1_S64x12800 : S64x1.Broadcasts S64x12800
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S64x12800_S12800 : S64x12800.Reduces [0] S12800
  shapeCasts_S12800_S1x12800 : S12800.ShapeCasts S1x12800
  broadcasts_S1x1_S1x12800 : S1x1.Broadcasts S1x12800
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  bcast_S3200000_S3200000x64_0 : S3200000.BroadcastsInDim S3200000x64 (![0] : Fin 1 → Fin S3200000x64.rank)
  bcast_S_S3200000x64 : S_.BroadcastsInDim S3200000x64 (![] : Fin 0 → Fin S3200000x64.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x12800.size a ≤ S1x3200000.size a
  hwx0_0 : ∀ i : grid0.Coords, EltTy.bits .f32 = 32 ∨ (Rect.block (s := S1x3200000) S1x12800.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S64x1.size a
  hwx0_1 : ∀ i : grid0.Coords, EltTy.bits .f32 = 32 ∨ (Rect.block (s := S64x1) S64x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x12800.size a ≤ S1x3200000.size a
  hwx0_5 : ∀ i : grid0.Coords, EltTy.bits .f32 = 32 ∨ (Rect.block (s := S1x3200000) S1x12800.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v6) S1x12800.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S64x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x12800.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S3200000 : Shape := ⟨1, ![3200000]⟩
abbrev S3200000x1 : Shape := ⟨2, ![3200000, 1]⟩
abbrev S64 : Shape := ⟨1, ![64]⟩
abbrev S64x64 : Shape := ⟨2, ![64, 64]⟩
abbrev S1x3200000 : Shape := ⟨2, ![1, 3200000]⟩
abbrev S_ : Shape := ⟨0, ![]⟩
abbrev S1x64 : Shape := ⟨2, ![1, 64]⟩
abbrev S3200000x64 : Shape := ⟨2, ![3200000, 64]⟩

abbrev nBuf : Space → Nat
  | .hbm => 105
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S3200000, .f32⟩
  | .hbm, ⟨3, _⟩ => ⟨S3200000x1, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S1x3200000, .i32⟩
  | .hbm, ⟨13, _⟩ => ⟨S3200000, .i32⟩
  | .hbm, ⟨14, _⟩ => ⟨S1x3200000, .i32⟩
  | .hbm, ⟨15, _⟩ => ⟨S3200000, .i32⟩
  | .hbm, ⟨16, _⟩ => ⟨S_, .f32⟩
  | .hbm, ⟨17, _⟩ => ⟨S3200000, .f32⟩
  | .hbm, ⟨18, _⟩ => ⟨S3200000, .f32⟩
  | .hbm, ⟨19, _⟩ => ⟨S_, .f32⟩
  | .hbm, ⟨20, _⟩ => ⟨S3200000, .f32⟩
  | .hbm, ⟨21, _⟩ => ⟨S3200000, .f32⟩
  | .hbm, ⟨22, _⟩ => ⟨S3200000x1, .f32⟩
  | .hbm, ⟨23, _⟩ => ⟨S1x64, .f32⟩
  | .hbm, ⟨24, _⟩ => ⟨S3200000x64, .f32⟩
  | .hbm, ⟨25, _⟩ => ⟨S3200000x64, .f32⟩
  | .hbm, ⟨26, _⟩ => ⟨S3200000x64, .f32⟩
  | .hbm, ⟨27, _⟩ => ⟨S1x64, .f32⟩
  | .hbm, ⟨28, _⟩ => ⟨S3200000x64, .f32⟩
  | .hbm, ⟨29, _⟩ => ⟨S3200000x64, .f32⟩
  | .hbm, ⟨30, _⟩ => ⟨S3200000x64, .f32⟩
  | .hbm, ⟨31, _⟩ => ⟨S3200000x64, .f32⟩
  | .hbm, ⟨32, _⟩ => ⟨S1x64, .f32⟩
  | .hbm, ⟨33, _⟩ => ⟨S3200000x64, .f32⟩
  | .hbm, ⟨34, _⟩ => ⟨S3200000x64, .f32⟩
  | .hbm, ⟨35, _⟩ => ⟨S_, .f32⟩
  | .hbm, ⟨36, _⟩ => ⟨S3200000, .f32⟩
  | .hbm, ⟨37, _⟩ => ⟨S3200000, .f32⟩
  | .hbm, ⟨38, _⟩ => ⟨S_, .f32⟩
  | .hbm, ⟨39, _⟩ => ⟨S3200000, .f32⟩
  | .hbm, ⟨40, _⟩ => ⟨S3200000, .f32⟩
  | .hbm, ⟨41, _⟩ => ⟨S3200000, .f32⟩
  | .hbm, ⟨42, _⟩ => ⟨S_, .f32⟩
  | .hbm, ⟨43, _⟩ => ⟨S3200000, .f32⟩
  | .hbm, ⟨44, _⟩ => ⟨S3200000, .f32⟩
  | .hbm, ⟨45, _⟩ => ⟨S_, .f32⟩
  | .hbm, ⟨46, _⟩ => ⟨S3200000, .f32⟩
  | .hbm, ⟨47, _⟩ => ⟨S3200000, .f32⟩
  | .hbm, ⟨48, _⟩ => ⟨S_, .f32⟩
  | .hbm, ⟨49, _⟩ => ⟨S3200000, .f32⟩
  | .hbm, ⟨50, _⟩ => ⟨S3200000, .i1⟩
  | .hbm, ⟨51, _⟩ => ⟨S_, .f32⟩
  | .hbm, ⟨52, _⟩ => ⟨S_, .f32⟩
  | .hbm, ⟨53, _⟩ => ⟨S3200000, .f32⟩
  | .hbm, ⟨54, _⟩ => ⟨S3200000, .f32⟩
  | .hbm, ⟨55, _⟩ => ⟨S3200000x1, .f32⟩
  | .hbm, ⟨56, _⟩ => ⟨S3200000x64, .f32⟩
  | .hbm, ⟨57, _⟩ => ⟨S3200000x64, .f32⟩
  | .hbm, ⟨58, _⟩ => ⟨S_, .i32⟩
  | .hbm, ⟨59, _⟩ => ⟨S3200000, .i32⟩
  | .hbm, ⟨60, _⟩ => ⟨S3200000, .i1⟩
  | .hbm, ⟨61, _⟩ => ⟨S_, .i32⟩
  | .hbm, ⟨62, _⟩ => ⟨S3200000, .i32⟩
  | .hbm, ⟨63, _⟩ => ⟨S3200000, .i32⟩
  | .hbm, ⟨64, _⟩ => ⟨S3200000, .i32⟩
  | .hbm, ⟨65, _⟩ => ⟨S3200000x1, .i32⟩
  | .hbm, ⟨66, _⟩ => ⟨S3200000x64, .f32⟩
  | .hbm, ⟨67, _⟩ => ⟨S_, .f32⟩
  | .hbm, ⟨68, _⟩ => ⟨S3200000, .f32⟩
  | .hbm, ⟨69, _⟩ => ⟨S3200000x1, .f32⟩
  | .hbm, ⟨70, _⟩ => ⟨S3200000x64, .f32⟩
  | .hbm, ⟨71, _⟩ => ⟨S3200000x64, .f32⟩
  | .hbm, ⟨72, _⟩ => ⟨S_, .f32⟩
  | .hbm, ⟨73, _⟩ => ⟨S100000x64, .f32⟩
  | .hbm, ⟨74, _⟩ => ⟨S_, .i32⟩
  | .hbm, ⟨75, _⟩ => ⟨S3200000, .i32⟩
  | .hbm, ⟨76, _⟩ => ⟨S3200000, .i1⟩
  | .hbm, ⟨77, _⟩ => ⟨S_, .i32⟩
  | .hbm, ⟨78, _⟩ => ⟨S3200000, .i32⟩
  | .hbm, ⟨79, _⟩ => ⟨S3200000, .i32⟩
  | .hbm, ⟨80, _⟩ => ⟨S3200000, .i32⟩
  | .hbm, ⟨81, _⟩ => ⟨S3200000x1, .i32⟩
  | .hbm, ⟨82, _⟩ => ⟨S100000x64, .f32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S_, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S100000x64, .i1⟩
  | .hbm, ⟨93, _⟩ => ⟨S100000x64, .f32⟩
  | .hbm, ⟨94, _⟩ => ⟨S100000x64, .f32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S100000x64, .f32⟩
  | .hbm, ⟨99, _⟩ => ⟨S100000x64, .f32⟩
  | .hbm, ⟨100, _⟩ => ⟨S100000x64, .f32⟩
  | .hbm, ⟨101, _⟩ => ⟨S100000x64, .f32⟩
  | .hbm, ⟨102, _⟩ => ⟨S1x64, .f32⟩
  | .hbm, ⟨103, _⟩ => ⟨S100000x64, .f32⟩
  | .hbm, ⟨104, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_call0_v0 : Ref sig .tc := ⟨.hbm, 52, rfl⟩
abbrev main_call0_v1 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_c_10 : Ref sig .tc := ⟨.hbm, 74, rfl⟩
abbrev main_v48 : Ref sig .tc := ⟨.hbm, 75, rfl⟩
abbrev main_v49 : Ref sig .tc := ⟨.hbm, 76, rfl⟩
abbrev main_c_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call1_cst : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_v5 : Ref sig .tc := ⟨.hbm, 93, rfl⟩
abbrev main_call1_v6 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S64_S1x64_1 : S64.BroadcastsInDim S1x64 (![1] : Fin 1 → Fin S1x64.rank)
  bcast_S3200000x1_S3200000x64_0_1 : S3200000x1.BroadcastsInDim S3200000x64 (![0, 1] : Fin 2 → Fin S3200000x64.rank)
  bcast_S1x64_S3200000x64_0_1 : S1x64.BroadcastsInDim S3200000x64 (![0, 1] : Fin 2 → Fin S3200000x64.rank)
  reducesTo_S3200000x64_S3200000_d1 : S3200000x64.ReducesTo [1] S3200000
  h_S_ : 0 < S_.numel
  bcast_S_S100000x64 : S_.BroadcastsInDim S100000x64 (![] : Fin 0 → Fin S100000x64.rank)
  bcast_S1x64_S100000x64_0_1 : S1x64.BroadcastsInDim S100000x64 (![0, 1] : Fin 2 → Fin S100000x64.rank)
  dot_S3200000x64_S64x64_S3200000x64_1_0_0_1_n_n_wf : DotDims.WF S3200000x64 S64x64 S3200000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []

variable [Facts₀]

def dot_S3200000x64_S64x64_S3200000x64_1_0_0_1_n_n : DotDims S3200000x64 S64x64 S3200000x64 where
  lhsContracting := [1]
  rhsContracting := [0]
  lhsNonContracting := [0]
  rhsNonContracting := [1]
  lhsBatch := []
  rhsBatch := []
  wf := dot_S3200000x64_S64x64_S3200000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.HostTerms.lean ====
/-
  The host-side values of the kernel's program between its two regions, as functions of the arrays they are
  computed from: the column and row indices with negative entries wrapped by the node count, the gathered
  neighbour rows with their in-range mask, and the scatter-added messages.
-/
import proofs.«406212_j60361470378647_2_alg».proof.Proof.Gen.KernelIdeal

noncomputable section

namespace Cert.Cfc.HostK

open Cert.KernelIdeal Cert.KernelIdeal.Gen Idealize.ShloMosaic

variable {F : FTy → Type} [FloatOps F]

/-- Row `r` of the edge list as a vector of node numbers. -/
def edgeRow0 (x1 : IVec S2x3200000 32) : IVec S3200000 32 :=
  shapeCast S3200000 (extractStridedSlice S1x3200000 ![0, 0] x1 slices_S2x3200000_S1x3200000_0_0) shapeCasts_S1x3200000_S3200000
def edgeRow1 (x1 : IVec S2x3200000 32) : IVec S3200000 32 :=
  shapeCast S3200000 (extractStridedSlice S1x3200000 ![1, 0] x1 slices_S2x3200000_S1x3200000_1_0) shapeCasts_S1x3200000_S3200000

/-- A node number with a negative entry wrapped by the node count 100000. -/
def wrap (v : IVec S3200000 32) : IVec S3200000 32 :=
  select (cmpi .slt v (broadcastInDim S3200000 ![] bcast_S_S3200000 (constantI S_ 32 0#32)))
    (addi v (broadcastInDim S3200000 ![] bcast_S_S3200000 (constantI S_ 32 100000#32))) v

/-- The wrapped numbers as a column of start indices. -/
def asCol (v : IVec S3200000 32) : IVec S3200000x1 32 := broadcastInDim S3200000x1 ![0] bcast_S3200000_S3200000x1_0 v

/-- Per edge: is the wrapped source node inside [0, 99999]? -/
def inRange (idx : IVec S3200000x1 32) : IVec S3200000 1 :=
  Host.reduce IntOp.andi
    (andi (cmpi .sge idx (broadcastInDim S3200000x1 ![] bcast_S_S3200000x1 (constantI S_ 32 0#32)))
      (cmpi .sle idx (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- The gathered neighbour rows. -/
def gathered (x0 : FVec F S100000x64 .f32) (idx : IVec S3200000x1 32) : FVec F S3200000x64 .f32 :=
  Host.gather gather_S100000x64_S3200000x1_S3200000x64_1_0_n_n_0_1_164 x0 idx

/-- The neighbour rows as the kernel's program takes them: the gathered row where the source node is in range, a fill
    value elsewhere. -/
def taken (x0 : FVec F S100000x64 .f32) (idx : IVec S3200000x1 32) : FVec F S3200000x64 .f32 :=
  select (broadcastInDim S3200000x64 ![0] bcast_S3200000_S3200000x64_0 (inRange idx)) (gathered x0 idx)
    (broadcastInDim S3200000x64 ![] bcast_S_S3200000x64 (constant S_ .f32 0x7FC00000#32))

/-- A per-edge scalar laid along the 64 feature columns. -/
def alongCols (v : FVec F S3200000 .f32) : FVec F S3200000x64 .f32 :=
  broadcastInDim S3200000x64 ![0, 1] bcast_S3200000x1_S3200000x64_0_1 (broadcastInDim S3200000x1 ![0] bcast_S3200000_S3200000x1_0 v)

/-- The messages scatter-added into the nodes: node n collects, over the edges whose wrapped target is n, the
    neighbour row times the edge coefficient. -/
def scattered (rowIdx : IVec S3200000x1 32) (msg : FVec F S3200000x64 .f32) : FVec F S100000x64 .f32 :=
  Host.scatterAdd scatter_S100000x64_S3200000x1_S3200000x64_1_0_0_1
    (broadcastInDim S100000x64 ![] bcast_S_S100000x64 (constant S_ .f32 0x00000000#32)) rowIdx msg

end Cert.Cfc.HostK

end
-- ==== Proof.HostReads.lean ====
/-
  What the two regions find in their input arrays, as functions of the launch memory.

  Region 0 finds the distances as a 1×E row, the first filter layer's weights and biases as 64×1 columns, the row
  sums of the second layer's matrix (each from zero) as a column and the sum of its bias (from zero) as a 1×1
  array. Region 1 finds the two interaction matrices as launched, the two biases as 1×64 rows, and the aggregated
  messages: over the edges, the taken neighbour row times the edge coefficient (region 0's output read as a
  vector), scatter-added at the wrapped target node. No host operation and no region writes an argument, and
  region 0 writes its output array only, so each read walks back through the stretches to the launch memory.
-/
import proofs.«406212_j60361470378647_2_alg».proof.Proof.Gen.KernelIdeal.Frame
import proofs.«406212_j60361470378647_2_alg».proof.Proof.HostTerms
import Idealize.ShloMosaic.Lib.StableHlo.Run

set_option maxRecDepth 16384

noncomputable section

namespace Cert.Cfc.HostK

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## At region 0's entry -/

theorem V1_dist (c : Dev nD) :
    V1 m ρ c main_v6 = shapeCast S1x3200000 (m ((c : Thread nD τ).loc main_arg2)) shapeCasts_S3200000_S1x3200000 := by
  show StableHlo.after hostOps0 (W0 m ρ c) (Proc.devRef .tc main_v6) = _
  dsimp only [hostOps0]; after_results; rfl

theorem V1_wIn (c : Dev nD) :
    V1 m ρ c main_v7 = shapeCast S64x1 (m ((c : Thread nD τ).loc main_arg4)) shapeCasts_S64_S64x1 := by
  show StableHlo.after hostOps0 (W0 m ρ c) (Proc.devRef .tc main_v7) = _
  dsimp only [hostOps0]; after_results; rfl

theorem V1_bIn (c : Dev nD) :
    V1 m ρ c main_v8 = shapeCast S64x1 (m ((c : Thread nD τ).loc main_arg5)) shapeCasts_S64_S64x1 := by
  show StableHlo.after hostOps0 (W0 m ρ c) (Proc.devRef .tc main_v8) = _
  dsimp only [hostOps0]; after_results; rfl

theorem V1_wSum (c : Dev nD) :
    V1 m ρ c main_v9 = shapeCast S64x1 (Host.reduceAdd (m ((c : Thread nD τ).loc main_arg6)) (constant S_ .f32 0x00000000#32)
      reducesTo_S64x64_S64_d1 h_S_) shapeCasts_S64_S64x1 := by
  show StableHlo.after hostOps0 (W0 m ρ c) (Proc.devRef .tc main_v9) = _
  dsimp only [hostOps0]; after_results; rfl

theorem V1_bSum (c : Dev nD) :
    V1 m ρ c main_v10 = shapeCast S1x1 (Host.reduceAdd (m ((c : Thread nD τ).loc main_arg7)) (constant S_ .f32 0x00000000#32)
      reducesTo_S64_S_d0 h_S_) shapeCasts_S_S1x1 := by
  show StableHlo.after hostOps0 (W0 m ρ c) (Proc.devRef .tc main_v10) = _
  dsimp only [hostOps0]; after_results; rfl

/-! ## One stretch at a time, over any contents `X` found at the stretch's start -/

section Stretches

variable (X : Valuation τ sig (Elt F))

/-- A value written to a typed reference and read back through it is the value. -/
theorem ofBuf_toBuf {T : BufTy} (x : TRef sig T) (v : T.Contents (Elt F)) : x.ofBuf (x.toBuf v) = v := by
  obtain ⟨r, h, _, _⟩ := x; subst h; rfl

/-- The first stretch: the two rows of the edge list as vectors; the node features are not written. -/
theorem s0_row0 : StableHlo.after (hostOps0 (F := F)) X (Proc.devRef .tc main_v1) = edgeRow0 (X (Proc.devRef .tc main_arg1)) := by
  dsimp only [hostOps0]; after_results; rfl
theorem s0_row1 : StableHlo.after (hostOps0 (F := F)) X (Proc.devRef .tc main_v3) = edgeRow1 (X (Proc.devRef .tc main_arg1)) := by
  dsimp only [hostOps0]; after_results; rfl
theorem s0_feat : StableHlo.after (hostOps0 (F := F)) X (Proc.devRef .tc main_arg0) = X (Proc.devRef .tc main_arg0) := by
  dsimp only [hostOps0]; after_results

/-- The stretch after region 0: its output row read as a vector; nothing else of what the later stretches read is
    written. -/
theorem s1_coef : StableHlo.after (hostOps1 (F := F)) X (Proc.devRef .tc main_v12)
    = shapeCast S3200000 (X (Proc.devRef .tc main_v11)) shapeCasts_S1x3200000_S3200000 := by
  dsimp only [hostOps1]; after_results; rfl
theorem s1_row0 : StableHlo.after (hostOps1 (F := F)) X (Proc.devRef .tc main_v1) = X (Proc.devRef .tc main_v1) := by
  dsimp only [hostOps1]; after_results
theorem s1_row1 : StableHlo.after (hostOps1 (F := F)) X (Proc.devRef .tc main_v3) = X (Proc.devRef .tc main_v3) := by
  dsimp only [hostOps1]; after_results
theorem s1_feat : StableHlo.after (hostOps1 (F := F)) X (Proc.devRef .tc main_arg0) = X (Proc.devRef .tc main_arg0) := by
  dsimp only [hostOps1]; after_results

set_option maxHeartbeats 2000000 in
/-- The take's stretch, with the typed references' transports as they stand. -/
theorem s2_taken_cast : StableHlo.after (hostOps1_1 (F := F)) X (Proc.devRef .tc main_v13)
    = (TRef.of (sig := sig) (T := ⟨S3200000x64, .f32⟩) main_v13).toBuf
        (taken ((TRef.of (sig := sig) (T := ⟨S100000x64, .f32⟩) main_arg0).ofBuf (X (Proc.devRef .tc main_arg0)))
          (asCol (wrap ((TRef.of (sig := sig) (T := ⟨S3200000, .i32⟩) main_v3).ofBuf (X (Proc.devRef .tc main_v3)))))) := by
  dsimp only [hostOps1_1]
  after_results_simp
  simp only [ofBuf_toBuf]
  unfold taken gathered inRange asCol wrap
  rfl

/-- The take's stretch: the taken rows of the node features at the wrapped source nodes. -/
theorem s2_taken : StableHlo.after (hostOps1_1 (F := F)) X (Proc.devRef .tc main_v13)
    = taken (X (Proc.devRef .tc main_arg0)) (asCol (wrap (X (Proc.devRef .tc main_v3)))) := by
  rw [s2_taken_cast]
  have e0 : (TRef.of (sig := sig) (T := ⟨S100000x64, .f32⟩) main_arg0).ofBuf (X (Proc.devRef .tc main_arg0))
      = X (Proc.devRef .tc main_arg0) := cast_eq _ _
  have e3 : (TRef.of (sig := sig) (T := ⟨S3200000, .i32⟩) main_v3).ofBuf (X (Proc.devRef .tc main_v3))
      = X (Proc.devRef .tc main_v3) := cast_eq _ _
  rw [e0, e3]
  exact cast_eq _ _
theorem s2_coef : StableHlo.after (hostOps1_1 (F := F)) X (Proc.devRef .tc main_v12) = X (Proc.devRef .tc main_v12) := by
  dsimp only [hostOps1_1]; after_results
theorem s2_row0 : StableHlo.after (hostOps1_1 (F := F)) X (Proc.devRef .tc main_v1) = X (Proc.devRef .tc main_v1) := by
  dsimp only [hostOps1_1]; after_results

set_option maxHeartbeats 2000000 in
/-- The last stretch: the messages scatter-added at the wrapped target nodes. -/
theorem s3_agg : StableHlo.after (hostOps1_2 (F := F)) X (Proc.devRef .tc main_v24)
    = scattered (asCol (wrap (X (Proc.devRef .tc main_v1))))
        (mulf (X (Proc.devRef .tc main_v13)) (alongCols (X (Proc.devRef .tc main_v12)))) := by
  dsimp only [hostOps1_2]
  after_results_simp
  unfold scattered asCol wrap alongCols
  rfl

end Stretches

/-! ## At region 1's entry -/

theorem V5_matA (c : Dev nD) : V5 m ρ c main_arg8 = m ((c : Thread nD τ).loc main_arg8) := by
  show StableHlo.after hostOps1_2 (StableHlo.after hostOps1_1 (StableHlo.after hostOps1 (W2 m ρ c))) (Proc.devRef .tc main_arg8) = _
  dsimp only [hostOps1_2, hostOps1_1, hostOps1]
  after_results
  rw [W2_of_ne m ρ c main_arg8 (by decide)]
  after_results

theorem V5_matB (c : Dev nD) : V5 m ρ c main_arg10 = m ((c : Thread nD τ).loc main_arg10) := by
  show StableHlo.after hostOps1_2 (StableHlo.after hostOps1_1 (StableHlo.after hostOps1 (W2 m ρ c))) (Proc.devRef .tc main_arg10) = _
  dsimp only [hostOps1_2, hostOps1_1, hostOps1]
  after_results
  rw [W2_of_ne m ρ c main_arg10 (by decide)]
  after_results

theorem V5_rowP (c : Dev nD) :
    V5 m ρ c main_v25 = shapeCast S1x64 (m ((c : Thread nD τ).loc main_arg9)) shapeCasts_S64_S1x64 := by
  show StableHlo.after hostOps1_2 (StableHlo.after hostOps1_1 (StableHlo.after hostOps1 (W2 m ρ c))) (Proc.devRef .tc main_v25) = _
  dsimp only [hostOps1_2, hostOps1_1, hostOps1]
  after_results
  rw [W2_of_ne m ρ c main_arg9 (by decide)]
  dsimp only [hostOps0]
  after_results
  rfl

theorem V5_rowQ (c : Dev nD) :
    V5 m ρ c main_v26 = shapeCast S1x64 (m ((c : Thread nD τ).loc main_arg11)) shapeCasts_S64_S1x64 := by
  show StableHlo.after hostOps1_2 (StableHlo.after hostOps1_1 (StableHlo.after hostOps1 (W2 m ρ c))) (Proc.devRef .tc main_v26) = _
  dsimp only [hostOps1_2, hostOps1_1, hostOps1]
  after_results
  rw [W2_of_ne m ρ c main_arg11 (by decide)]
  dsimp only [hostOps0]
  after_results
  rfl

/-- The aggregated messages region 1 finds, over region 0's output array. -/
theorem V5_agg (c : Dev nD) :
    V5 m ρ c main_v24 = scattered (asCol (wrap (edgeRow0 (m ((c : Thread nD τ).loc main_arg1)))))
      (mulf (taken (m ((c : Thread nD τ).loc main_arg0)) (asCol (wrap (edgeRow1 (m ((c : Thread nD τ).loc main_arg1))))))
        (alongCols (shapeCast S3200000 ((dat0 (V1 m ρ) c).arrAt 5 cfg0.N) shapeCasts_S1x3200000_S3200000))) := by
  have h11 : W2 m ρ c (Proc.devRef .tc main_v11) = (dat0 (V1 m ρ) c).arrAt 5 cfg0.N := W2_arr m ρ c 5
  have hrow0 : W4 m ρ c (Proc.devRef .tc main_v1) = edgeRow0 (m ((c : Thread nD τ).loc main_arg1)) :=
    (s2_row0 (W3 m ρ c)).trans ((s1_row0 (W2 m ρ c)).trans ((W2_of_ne m ρ c main_v1 (by decide)).trans (s0_row0 (W0 m ρ c))))
  have hrow1 : W3 m ρ c (Proc.devRef .tc main_v3) = edgeRow1 (m ((c : Thread nD τ).loc main_arg1)) :=
    (s1_row1 (W2 m ρ c)).trans ((W2_of_ne m ρ c main_v3 (by decide)).trans (s0_row1 (W0 m ρ c)))
  have hfeat : W3 m ρ c (Proc.devRef .tc main_arg0) = m ((c : Thread nD τ).loc main_arg0) :=
    (s1_feat (W2 m ρ c)).trans ((W2_of_ne m ρ c main_arg0 (by decide)).trans (s0_feat (W0 m ρ c)))
  have hcoef : W4 m ρ c (Proc.devRef .tc main_v12)
      = shapeCast S3200000 ((dat0 (V1 m ρ) c).arrAt 5 cfg0.N) shapeCasts_S1x3200000_S3200000 :=
    (s2_coef (W3 m ρ c)).trans ((s1_coef (W2 m ρ c)).trans (by rw [h11]))
  have htaken : W4 m ρ c (Proc.devRef .tc main_v13)
      = taken (m ((c : Thread nD τ).loc main_arg0)) (asCol (wrap (edgeRow1 (m ((c : Thread nD τ).loc main_arg1))))) :=
    (s2_taken (W3 m ρ c)).trans (by rw [hfeat, hrow1])
  show StableHlo.after hostOps1_2 (W4 m ρ c) (Proc.devRef .tc main_v24) = _
  rw [s3_agg (W4 m ρ c), hrow0, htaken, hcoef]

end Cert.Cfc.HostK

end
-- ==== Proof.Layout.lean ====
/-
  Small layout readings used where the kernel's program hands arrays to its regions: a vector as a 64×1 column, a
  scalar as a 1×1 array, and the two host sums of the second filter layer (the row sums of its matrix and the sum
  of its bias, each from zero) read at an index as plain finite sums.
-/
import proofs.«406212_j60361470378647_2_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.Cfc.Layout

open Cert.KernelIdeal Cert.KernelIdeal.Gen Idealize.ShloMosaic Idealize.ShloMosaic.ValueIdx

/-- A vector laid as a column: entry (f, 0) of the column is entry f of the vector. -/
theorem col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A scalar laid as a 1×1 array. -/
theorem scalar_apply {α : Type} (x : (⟨0, ![]⟩ : Shape).Idx → α) (h : (⟨0, ![]⟩ : Shape).ShapeCasts ⟨2, ![1, 1]⟩)
    (u v : Fin 1) : shapeCast ⟨2, ![1, 1]⟩ x h (ix2 u v) = x ix0 :=
  shapeCast_apply x h _ _ (by
    have hu : u.val = 0 := by omega
    have hv : v.val = 0 := by omega
    rw [Shape.rowMajor_val_two]
    show (Shape.rowMajor (⟨0, ![]⟩ : Shape) ix0).val = u.val * 1 + v.val
    have h0 : (Shape.rowMajor (⟨0, ![]⟩ : Shape) ix0).val < 1 := (Shape.rowMajor (⟨0, ![]⟩ : Shape) ix0).isLt
    omega)

/-- The row sums of a 64×64 matrix, summed on the host from zero. -/
theorem rowSum_apply (x : FVec Ideal S64x64 .f32) (f : Fin 64) :
    Host.reduceAdd (F := Ideal) x (constant S_ .f32 0x00000000#32) reducesTo_S64x64_S64_d1 h_S_ (ix1 f)
      = ∑ g : Fin 64, x (ix2 f g) := by
  simp only [Host.reduceAdd, Ideal.hostReduceAdd_def]
  rw [Ideal.hostReduceAdd_single reducesTo_S64x64_S64_d1 (by decide)]
  show Ideal.ofBits .f32 0x00000000#32 + _ = _
  rw [Ideal.ofBits_zero_f32, zero_add]
  refine Finset.sum_congr rfl fun k _ => ?_
  exact congrArg x (funext fun a => Fin.ext (by match a with | ⟨0, _⟩ => rfl | ⟨1, _⟩ => rfl))

/-- The sum of a 64-vector, summed on the host from zero. -/
theorem vecSum_apply (x : FVec Ideal S64 .f32) :
    Host.reduceAdd (F := Ideal) x (constant S_ .f32 0x00000000#32) reducesTo_S64_S_d0 h_S_ ix0
      = ∑ g : Fin 64, x (ix1 g) := by
  simp only [Host.reduceAdd, Ideal.hostReduceAdd_def]
  rw [Ideal.hostReduceAdd_total reducesTo_S64_S_d0 (fun b => b.elim0)]
  show Ideal.ofBits .f32 0x00000000#32 + _ = _
  rw [Ideal.ofBits_zero_f32, zero_add]
  exact Fintype.sum_equiv ⟨fun i => (i 0 : Fin 64), fun g => ix1 g, fun i => (eq_ix1 i).symm, fun g => rfl⟩ _ _
    (fun i => congrArg x (eq_ix1 i))

end Cert.Cfc.Layout

end
-- ==== Proof.Spec.lean ====
/-
  The continuous-filter convolution on the extended reals, as scalar formulas.

  An edge at distance d carries one coefficient. The filter network's hidden unit f is
  h_f = tanh((0.4·d − 1)·a_f + b_f); the cosine cutoff is c(d) = ½(cos(π·d/5) + 1) for d ≤ 5 and 0 beyond.
  Summing the second filter layer's outputs over the filter axis,
      Σ_g ((Σ_f h_f·W_fg + β_g)·c(d)),
  is, for finite data, the single inner product
      ((Σ_f h_f·(Σ_g W_fg)) + Σ_g β_g)·c(d):
  sums over f and g commute and c(d) distributes over the sum, both of which hold on the reals and fail
  at the infinities, which is why the weights and the distance are taken real in `coef_eq`.

  A node's output row is softplus(agg·A + p)·B + q with softplus h = max(h, 0) + log(1 + e^{−|h|}).
-/
import Idealize.ShloMosaic.PureOps.Ideal
import Idealize.ShloMosaic.PureOps.Ideal.Laws
import Idealize.ShloMosaic.Lib.ValueIdx

noncomputable section

namespace Cert.Cfc

open Idealize.ShloMosaic

/-- An f32 word read as the extended real it denotes. -/
abbrev lit (w : BitVec 32) : EReal := Ideal.ofBits .f32 w

/-- Hidden unit of the filter network at distance `d`, input weight `a`, bias `b`. -/
def hid (d a b : EReal) : EReal :=
  Ideal.tanh ((d * lit 0x3ECCCCCD#32 - lit 0x3F800000#32) * a + b)

/-- The cosine cutoff: ½(cos(π·d/5) + 1) up to the cutoff radius 5, zero beyond it. -/
def cutoff (d : EReal) : EReal :=
  Scalar.select (Ideal.cmp .ole d (lit 0x40A00000#32))
    (lit 0x3F000000#32 * (Ideal.cos (Ideal.div (d * lit 0x40490FDB#32) (lit 0x40A00000#32)) + lit 0x3F800000#32))
    (lit 0x00000000#32)

/-- The edge coefficient as one inner product against the row sums `w` of the second layer and the summed bias `s`. -/
def coefK (d : EReal) (a b w : Fin 64 → EReal) (s : EReal) : EReal :=
  ((∑ f, hid d (a f) (b f) * w f) + s) * cutoff d

/-- The edge coefficient as the sum over output filters `g` of the cut-off second layer. -/
def coefR (d : EReal) (a b : Fin 64 → EReal) (W : Fin 64 → Fin 64 → EReal) (β : Fin 64 → EReal) : EReal :=
  ∑ g, ((∑ f, hid d (a f) (b f) * W f g) + β g) * cutoff d

/-- softplus h = max(h, 0) + log(1 + e^{−|h|}), with |h| = max(h, −h). -/
def sp (h : EReal) : EReal := max h 0 + Ideal.log1p (Ideal.exp (-(max h (-h))))

/-- Entry `j` of a node's output row from its aggregated row `agg`: softplus(agg·A + p)·B + q. -/
def tailAt (agg : Fin 64 → EReal) (A : Fin 64 → Fin 64 → EReal) (p : Fin 64 → EReal)
    (B : Fin 64 → Fin 64 → EReal) (q : Fin 64 → EReal) (j : Fin 64) : EReal :=
  (∑ k, sp ((∑ l, agg l * A l k) + p k) * B k j) + q j

end Cert.Cfc

end
-- ==== Proof.Region0.lean ====
/-
  The first region's output array, entry by entry.

  The region walks the 3,200,000 edges in 250 blocks of 12,800 along the lane axis. At an edge at distance d its
  body forms the 64 hidden units tanh((0.4·d − 1)·a_f + b_f), takes their inner product with the column w, adds
  the scalar s and multiplies by the cosine cutoff of d. Block t of the output is written by point t alone and the
  blocks tile the array, so entry (0, e) of the array after the run is that formula of the region's input arrays
  at e.
-/
import proofs.«406212_j60361470378647_2_alg».proof.Proof.Gen.KernelIdeal.Frame
import proofs.«406212_j60361470378647_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Cfc.Region0

open Cert.KernelIdeal Cert.KernelIdeal.Gen Cert.Cfc
open Idealize.ShloMosaic Idealize.ShloMosaic.TcCoe Idealize.SL.Sem Idealize.ShloMosaic.ValueIdx

variable (V : (c : Dev nD) → (b : Ref sig .tc) → Buf (Elt Ideal) ((c : Thread nD τ).loc b))

/-- The region's five input arrays as it finds them: the distances as a row, the first layer's weights and biases
    and the second layer's row sums as columns, the summed second bias as a 1×1 array. -/
abbrev dist (c : Dev nD) : FVec Ideal S1x3200000 .f32 := V c main_v6
abbrev wIn (c : Dev nD) : FVec Ideal S64x1 .f32 := V c main_v7
abbrev bIn (c : Dev nD) : FVec Ideal S64x1 .f32 := V c main_v8
abbrev wSum (c : Dev nD) : FVec Ideal S64x1 .f32 := V c main_v9
abbrev bSum (c : Dev nD) : FVec Ideal S1x1 .f32 := V c main_v10

/-- The output array after the run, at its literal type. -/
abbrev outArr (c : Dev nD) : FVec Ideal S1x3200000 .f32 := (dat0 (F := Ideal) V c).arrAt 5 cfg0.N

/-! ## Layout operations of the body read at an index -/

/-- A column [64,1] broadcast along the lanes reads, at (f, q), the column's entry f. -/
theorem colBroadcast_apply (v : FVec Ideal S64x1 .f32) (f : Fin 64) (q : Fin 12800) :
    broadcastTo S64x12800 v broadcasts_S64x1_S64x12800 (ix2 f q) = v (ix2 f (0 : Fin 1)) := by
  refine broadcastTo_apply v broadcasts_S64x1_S64x12800 (ix2 f q) (ix2 f (0 : Fin 1)) fun ax => ?_
  match ax with
  | ⟨0, _⟩ => rfl
  | ⟨1, _⟩ => rfl

/-- A row [1,12800] broadcast over 64 rows reads, at (f, q), the row's entry q. -/
theorem rowBroadcast_apply (v : FVec Ideal S1x12800 .f32) (f : Fin 64) (q : Fin 12800) :
    broadcastTo S64x12800 v broadcasts_S1x12800_S64x12800 (ix2 f q) = v (ix2 (0 : Fin 1) q) :=
  broadcastTo_1b_ab_apply v broadcasts_S1x12800_S64x12800 f q

/-- A 1×1 array broadcast along the lanes reads its one entry everywhere. -/
theorem unitBroadcast_apply (v : FVec Ideal S1x1 .f32) (q : Fin 12800) :
    broadcastTo S1x12800 v broadcasts_S1x1_S1x12800 (ix2 (0 : Fin 1) q) = v (ix2 (0 : Fin 1) (0 : Fin 1)) := by
  refine broadcastTo_apply v broadcasts_S1x1_S1x12800 (ix2 (0 : Fin 1) q) (ix2 (0 : Fin 1) (0 : Fin 1)) fun ax => ?_
  match ax with
  | ⟨0, _⟩ => rfl
  | ⟨1, _⟩ => rfl

/-- The sum over the 64 rows of a [64,12800] array, laid out as a row, reads at (0, q) the sum of column q. -/
theorem laneSum_apply (v : FVec Ideal S64x12800 .f32) (q : Fin 12800) :
    shapeCast S1x12800 (multiReduction (F := Ideal) .add [0] S12800 v 0x00000000#32 reduces_S64x12800_S12800 (.inl rfl) rfl)
        shapeCasts_S12800_S1x12800 (ix2 (0 : Fin 1) q)
      = ∑ f : Fin 64, v (ix2 f q) := by
  rw [shapeCast_a_1a_apply]
  refine (Ideal.multiReduction_add_single v 0x00000000#32 reduces_S64x12800_S12800 (.inl rfl) rfl (ix1 q)).trans ?_
  refine Finset.sum_congr rfl fun f _ => congrArg v ?_
  funext ax
  match ax with
  | ⟨0, _⟩ => rfl
  | ⟨1, _⟩ => rfl

/-! ## The body's arithmetic at a lane -/

/-- The hyperbolic tangent of an array reads, at an index, the tangent of the entry. -/
theorem tanh_apply {s : Shape} (v : FVec Ideal s .f32) (i : s.Idx) : tanh v i = Ideal.tanh (v i) := rfl

/-- The body's arithmetic at lane q of a block: the edge coefficient of the block's distance at q against the
    three columns and the 1×1 array. -/
theorem body_at_lane (x0 : Vec Ideal S1x12800 .f32) (x1 x2 x3 : Vec Ideal S64x1 .f32) (x4 : Vec Ideal S1x1 .f32) (q : Fin 12800) :
    k0_pay1 (F := Ideal) x0 x1 x2 x3 x4 (ix2 (0 : Fin 1) q)
      = coefK (x0 (ix2 (0 : Fin 1) q)) (fun f => x1 (ix2 f (0 : Fin 1))) (fun f => x2 (ix2 f (0 : Fin 1)))
          (fun f => x3 (ix2 f (0 : Fin 1))) (x4 (ix2 (0 : Fin 1) (0 : Fin 1))) := by
  unfold k0_pay1
  dsimp only
  simp only [shapeCast_self]
  unfold coefK
  refine congrArg₂ (· * ·) (congrArg₂ (· + ·) ?_ ?_) ?_
  · refine (laneSum_apply _ q).trans (Finset.sum_congr rfl fun f _ => ?_)
    simp only [mulf_apply, addf_apply, subf_apply, tanh_apply, broadcast_apply, colBroadcast_apply, rowBroadcast_apply]
    rfl
  · exact unitBroadcast_apply x4 q
  · rfl

/-! ## From the blocks to the array -/

/-- The whole output array as ONE function of the five input arrays: at edge e, the edge coefficient of e. -/
abbrev coefArr (c : Dev nD) : FVec Ideal S1x3200000 .f32 := fun i =>
  coefK (dist V c (ix2 (0 : Fin 1) (⟨(i 1).val, idx2_lt1 i⟩ : Fin 3200000)))
    (fun f => wIn V c (ix2 f (0 : Fin 1))) (fun f => bIn V c (ix2 f (0 : Fin 1)))
    (fun f => wSum V c (ix2 f (0 : Fin 1))) (bSum V c (ix2 (0 : Fin 1) (0 : Fin 1)))

/-- The zero offsets of a whole-buffer access, as a constant function. -/
theorem zeroOffsets : (![0, 0] : Fin 2 → Nat) = fun _ => 0 := funext fun a => by fin_cases a <;> rfl

/-- The windows' block indices over the grid: the distance window and the output window sit at block (0, t), the four
    whole-array windows at block (0, 0). -/
theorem blockIndex : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- Lane q of the distance block at point t is edge t·12800 + q of the distance array. -/
theorem dist_blk (c : Dev nD) (t : Fin cfg0.N) (q : Fin 12800) (e : Fin 3200000) (he : e.val = t.val * 12800 + q.val) :
    (iblk0 V c 0 t : Vec Ideal S1x12800 .f32) (ix2 (0 : Fin 1) q) = dist V c (ix2 (0 : Fin 1) e) := by
  obtain ⟨h00, h01, -⟩ := blockIndex t
  unfold iblk0
  rw [View.read_apply]
  show V c main_v6 _ = V c main_v6 _
  congr 1
  funext a
  apply Fin.ext
  match a with
  | ⟨0, _⟩ => show win0_0.index t 0 * 1 + 1 * 0 = 0; omega
  | ⟨1, _⟩ => show win0_0.index t 1 * 12800 + 1 * q.val = e.val; omega

/-- The three column windows and the 1×1 window hold their whole arrays at every point. -/
theorem wIn_blk (c : Dev nD) (t : Fin cfg0.N) (f : Fin 64) :
    (iblk0 V c 1 t : Vec Ideal S64x1 .f32) (ix2 f (0 : Fin 1)) = wIn V c (ix2 f (0 : Fin 1)) := by
  obtain ⟨-, -, h0, h1, -⟩ := blockIndex t
  unfold iblk0
  rw [View.read_apply]
  show V c main_v7 _ = V c main_v7 _
  congr 1
  funext a
  apply Fin.ext
  match a with
  | ⟨0, _⟩ => show win0_1.index t 0 * 64 + 1 * f.val = f.val; omega
  | ⟨1, _⟩ => show win0_1.index t 1 * 1 + 1 * 0 = 0; omega

/-- The bias column likewise. -/
theorem bIn_blk (c : Dev nD) (t : Fin cfg0.N) (f : Fin 64) :
    (iblk0 V c 2 t : Vec Ideal S64x1 .f32) (ix2 f (0 : Fin 1)) = bIn V c (ix2 f (0 : Fin 1)) := by
  obtain ⟨-, -, -, -, h0, h1, -⟩ := blockIndex t
  unfold iblk0
  rw [View.read_apply]
  show V c main_v8 _ = V c main_v8 _
  congr 1
  funext a
  apply Fin.ext
  match a with
  | ⟨0, _⟩ => show win0_2.index t 0 * 64 + 1 * f.val = f.val; omega
  | ⟨1, _⟩ => show win0_2.index t 1 * 1 + 1 * 0 = 0; omega

/-- The row-sum column likewise. -/
theorem wSum_blk (c : Dev nD) (t : Fin cfg0.N) (f : Fin 64) :
    (iblk0 V c 3 t : Vec Ideal S64x1 .f32) (ix2 f (0 : Fin 1)) = wSum V c (ix2 f (0 : Fin 1)) := by
  obtain ⟨-, -, -, -, -, -, h0, h1, -⟩ := blockIndex t
  unfold iblk0
  rw [View.read_apply]
  show V c main_v9 _ = V c main_v9 _
  congr 1
  funext a
  apply Fin.ext
  match a with
  | ⟨0, _⟩ => show win0_3.index t 0 * 64 + 1 * f.val = f.val; omega
  | ⟨1, _⟩ => show win0_3.index t 1 * 1 + 1 * 0 = 0; omega

/-- The 1×1 window likewise. -/
theorem bSum_blk (c : Dev nD) (t : Fin cfg0.N) :
    (iblk0 V c 4 t : Vec Ideal S1x1 .f32) (ix2 (0 : Fin 1) (0 : Fin 1)) = bSum V c (ix2 (0 : Fin 1) (0 : Fin 1)) := by
  obtain ⟨-, -, -, -, -, -, -, -, h0, h1, -⟩ := blockIndex t
  unfold iblk0
  rw [View.read_apply]
  show V c main_v10 _ = V c main_v10 _
  congr 1
  funext a
  apply Fin.ext
  match a with
  | ⟨0, _⟩ => show win0_4.index t 0 * 1 + 1 * 0 = 0; omega
  | ⟨1, _⟩ => show win0_4.index t 1 * 1 + 1 * 0 = 0; omega

/-- The edge coefficient formed from point t's blocks at lane q is the coefficient array's entry at edge t·12800 + q. -/
theorem coef_of_blocks (c : Dev nD) (t : Fin cfg0.N) (q : Fin 12800) (i : S1x3200000.Idx) (hi : (i 1).val = t.val * 12800 + q.val) :
    coefK ((iblk0 V c 0 t : Vec Ideal S1x12800 .f32) (ix2 (0 : Fin 1) q))
        (fun f => (iblk0 V c 1 t : Vec Ideal S64x1 .f32) (ix2 f (0 : Fin 1)))
        (fun f => (iblk0 V c 2 t : Vec Ideal S64x1 .f32) (ix2 f (0 : Fin 1)))
        (fun f => (iblk0 V c 3 t : Vec Ideal S64x1 .f32) (ix2 f (0 : Fin 1)))
        ((iblk0 V c 4 t : Vec Ideal S1x1 .f32) (ix2 (0 : Fin 1) (0 : Fin 1)))
      = coefArr V c i := by
  rw [dist_blk V c t q ⟨(i 1).val, idx2_lt1 i⟩ hi]
  simp only [wIn_blk, bIn_blk, wSum_blk, bSum_blk]

/-- WHAT POINT t WRITES BACK is block t of the coefficient array. -/
theorem writeBack_eq (c : Dev nD) (t : Fin cfg0.N) :
    (dat0 (F := Ideal) V c).flushed 5 t = ((cfg0.win 5).blk t).view.read (Elt Ideal) (coefArr V c) := by
  show (cfg0.win 5).cut (grid0.coords t) ((dat0 (F := Ideal) V c).after 5 t) = _
  rw [after0_5]
  unfold out0_5
  rw [View.canon_unit_zero zeroOffsets]
  simp only [View.ld_unit_zero (S := S1x12800) zeroOffsets, View.ld_unit_zero (S := S64x1) zeroOffsets, View.ld_unit_zero (S := S1x1) zeroOffsets]
  obtain ⟨-, -, -, -, -, -, -, -, -, -, h50, h51⟩ := blockIndex t
  show (k0_pay1 (F := Ideal) (iblk0 V c 0 t) (iblk0 V c 1 t) (iblk0 V c 2 t) (iblk0 V c 3 t) (iblk0 V c 4 t) : S1x12800.Idx → EReal)
    = fun j => coefArr V c (((cfg0.win 5).blk t).view.emb j)
  funext j
  obtain ⟨p, q, rfl⟩ : ∃ (p : Fin 1) (q : Fin 12800), j = ix2 p q := ⟨j 0, j 1, eq_ix2 j⟩
  obtain rfl : p = 0 := Subsingleton.elim _ _
  refine (body_at_lane (iblk0 V c 0 t) (iblk0 V c 1 t) (iblk0 V c 2 t) (iblk0 V c 3 t) (iblk0 V c 4 t) q).trans ?_
  refine coef_of_blocks V c t q _ ?_
  show win0_5.index t 1 * 12800 + 1 * q.val = _
  omega

/-- An edge lies in point t's output block iff each coordinate is in the block's range on its axis. -/
theorem mem_outBlock (t : Fin cfg0.N) (i : S1x3200000.Idx) :
    i ∈ ((cfg0.win 5).blk t).view.set ↔ ∀ a : Fin 2, win0_5.index t a * S1x12800.size a ≤ (i a).val ∧ (i a).val < win0_5.index t a * S1x12800.size a + S1x12800.size a := by
  show i ∈ ((View.whole main_v11).slice (win0_5.rect t)).set ↔ _
  rw [View.set_slice_whole, Rect.mem_set_unit]
  exact Iff.rfl

/-- The 250 output blocks tile the array: edge e lies in the block of point e / 12800, which is written back. -/
theorem outBlocks_tile (i : S1x3200000.Idx) :
    ∃ t : Fin cfg0.N, (cfg0.win 5).flush t = true ∧ i ∈ ((cfg0.win 5).blk t).view.set := by
  have hi0 : (i 0).val < 1 := idx2_lt0 i
  have hi1 : (i 1).val < 3200000 := idx2_lt1 i
  have hN : cfg0.N = 250 := N_0
  have hlt : (i 1).val / 12800 < cfg0.N := by rw [hN]; omega
  obtain ⟨-, -, -, -, -, -, -, -, -, -, h50, h51⟩ := blockIndex ⟨(i 1).val / 12800, hlt⟩
  refine ⟨⟨(i 1).val / 12800, hlt⟩, flush0_5 _, ?_⟩
  rw [mem_outBlock]
  intro a
  match a with
  | ⟨0, _⟩ =>
    show win0_5.index ⟨(i 1).val / 12800, hlt⟩ 0 * 1 ≤ (i 0).val ∧ (i 0).val < win0_5.index ⟨(i 1).val / 12800, hlt⟩ 0 * 1 + 1
    omega
  | ⟨1, _⟩ =>
    show win0_5.index ⟨(i 1).val / 12800, hlt⟩ 1 * 12800 ≤ (i 1).val ∧ (i 1).val < win0_5.index ⟨(i 1).val / 12800, hlt⟩ 1 * 12800 + 12800
    have h51' : win0_5.index ⟨(i 1).val / 12800, hlt⟩ 1 = (i 1).val / 12800 := h51
    omega

/-- The output array after the run is the coefficient array. -/
theorem outArr_eq (c : Dev nD) : outArr V c = coefArr V c :=
  (dat0 (F := Ideal) V c).arrAt_eq_of_cover 5 (coefArr V c) (fun t _ => writeBack_eq V c t) outBlocks_tile

/-- Entry (0, e) of the region's output is the edge coefficient of edge e. -/
theorem out (c : Dev nD) (e : Fin 3200000) :
    outArr V c (ix2 0 e)
      = coefK (dist V c (ix2 0 e)) (fun f => wIn V c (ix2 f 0)) (fun f => bIn V c (ix2 f 0))
          (fun f => wSum V c (ix2 f 0)) (bSum V c (ix2 0 0)) := by
  rw [outArr_eq]

end Cert.Cfc.Region0

end
-- ==== Proof.Region1.lean ====
/-
  The second region's output array, entry by entry.

  The region walks the 100,000 nodes in 10 blocks of 10,000 rows. On a block of aggregated rows its body forms
  agg·A + p, applies softplus entrywise, multiplies by B and adds q (p and q are rows laid down the block). Block t
  of the output is written by point t alone and the blocks tile the array, so entry (n, j) of the array after the
  run is softplus(agg_n·A + p)·B + q at j.
-/
import proofs.«406212_j60361470378647_2_alg».proof.Proof.Gen.KernelIdeal.Frame
import proofs.«406212_j60361470378647_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Cfc.Region1

open Cert.KernelIdeal Cert.KernelIdeal.Gen Cert.Cfc
open Idealize.ShloMosaic Idealize.ShloMosaic.TcCoe Idealize.SL.Sem Idealize.ShloMosaic.ValueIdx

variable (V : (c : Dev nD) → (b : Ref sig .tc) → Buf (Elt Ideal) ((c : Thread nD τ).loc b))

/-- The region's five input arrays as it finds them: the aggregated messages, the two weight matrices, the two
    biases as 1×64 rows. -/
abbrev agg (c : Dev nD) : FVec Ideal S100000x64 .f32 := V c main_v24
abbrev matA (c : Dev nD) : FVec Ideal S64x64 .f32 := V c main_arg8
abbrev rowP (c : Dev nD) : FVec Ideal S1x64 .f32 := V c main_v25
abbrev matB (c : Dev nD) : FVec Ideal S64x64 .f32 := V c main_arg10
abbrev rowQ (c : Dev nD) : FVec Ideal S1x64 .f32 := V c main_v26

/-- The output array after the run, at its literal type. -/
abbrev outArr (c : Dev nD) : FVec Ideal S100000x64 .f32 := (dat1 (F := Ideal) V c).arrAt 5 cfg1.N

/-! ## The body's matrix product at an entry -/

theorem lhs_ax0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_ax1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_ax0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_ax1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block of rows times a 64×64 matrix, accumulated into zero: entry (r, j) is the dot product of row r with column j. -/
theorem mm_apply (l : FVec Ideal S10000x64 .f32) (w : FVec Ideal S64x64 .f32) (r : Fin 10000) (j : Fin 64) :
    matmul dot_S10000x64_S64x64_S10000x64_1_0_0_1_n_n none l w (constant S10000x64 .f32 0x00000000#32) (ix2 r j)
      = ∑ k : Fin 64, l (ix2 r k) * w (ix2 k j) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 r j) ((ValueIdx.contrEquiv1 dot_S10000x64_S64x64_S10000x64_1_0_0_1_n_n 64 rfl rfl).symm k) = ix2 r k := funext fun a => Fin.ext (by
    match a with
    | ⟨0, _⟩ => exact lhs_ax0 _ _
    | ⟨1, _⟩ => exact (lhs_ax1 _ _).trans hk)
  have er : dot_S10000x64_S64x64_S10000x64_1_0_0_1_n_n.rhsIdx (ix2 r j) ((ValueIdx.contrEquiv1 dot_S10000x64_S64x64_S10000x64_1_0_0_1_n_n 64 rfl rfl).symm k) = ix2 k j := funext fun a => Fin.ext (by
    match a with
    | ⟨0, _⟩ => exact (rhs_ax0 _ _).trans hk
    | ⟨1, _⟩ => exact rhs_ax1 _ _)
  rw [el, er]

/-! ## The body's softplus at a value -/

/-- The body's guarded softplus: a value is never unequal to itself, so the guard picks the stable form
    max h 0 + log1p (exp (−|h|)), with |h| = max h (−h). -/
theorem softplus_body (h : EReal) :
    Scalar.select (Ideal.cmp .one (h - lit 0x00000000#32) (h - lit 0x00000000#32)) (h + lit 0x00000000#32)
        (max h (lit 0x00000000#32) + Ideal.log1p (Ideal.exp (lit 0x00000000#32 - max (h - lit 0x00000000#32) (-(h - lit 0x00000000#32)))))
      = sp h := by
  have hc : Ideal.cmp .one (h - lit 0x00000000#32) (h - lit 0x00000000#32) = 0#1 := by
    simp [Ideal.cmp]
  rw [hc, select_zero]
  unfold sp
  rw [show lit 0x00000000#32 = 0 from Ideal.ofBits_zero_f32, sub_zero, zero_sub]

/-- The same at an entry of a block: the guarded softplus of a block, read at an entry, is softplus of that entry. -/
theorem softplus_block (v : FVec Ideal S10000x64 .f32) (i : S10000x64.Idx) :
    select (cmpf .one (subf v (broadcast S10000x64 (FloatOps.ofBits .f32 0x00000000#32))) (subf v (broadcast S10000x64 (FloatOps.ofBits .f32 0x00000000#32))))
        (addf v (broadcast S10000x64 (FloatOps.ofBits .f32 0x00000000#32)))
        (addf (maximumf v (broadcast S10000x64 (FloatOps.ofBits .f32 0x00000000#32)))
          (log1p (exp (subf (broadcast S10000x64 (FloatOps.ofBits .f32 0x00000000#32)) (absf (subf v (broadcast S10000x64 (FloatOps.ofBits .f32 0x00000000#32)))))))) i
      = sp (v i) :=
  softplus_body (v i)

/-! ## The body's result at an entry -/

/-- Entry (r, j) of the body's result on a block: softplus of (row r of the block)·A + p, times column j of B, plus q_j. -/
theorem body_apply (x0 : FVec Ideal S10000x64 .f32) (x1 : FVec Ideal S64x64 .f32) (x2 : FVec Ideal S1x64 .f32)
    (x3 : FVec Ideal S64x64 .f32) (x4 : FVec Ideal S1x64 .f32) (r : Fin 10000) (j : Fin 64) :
    k1_pay1 (F := Ideal) x0 x1 x2 x3 x4 (ix2 r j)
      = tailAt (fun l => x0 (ix2 r l)) (fun l k => x1 (ix2 l k)) (fun k => x2 (ix2 0 k))
          (fun k j' => x3 (ix2 k j')) (fun j' => x4 (ix2 0 j')) j := by
  unfold k1_pay1
  rw [shapeCast_self x0, shapeCast_self x2, shapeCast_self x4, addf_apply, mm_apply, broadcastTo_1b_ab_apply]
  unfold tailAt
  refine congrArg (· + x4 (ix2 0 j)) (Finset.sum_congr rfl fun k _ => ?_)
  rw [softplus_block, addf_apply, mm_apply, broadcastTo_1b_ab_apply]

/-! ## From the blocks to the array -/

theorem hz : (![0, 0] : Fin 2 → Nat) = fun _ => 0 := funext fun a => by fin_cases a <;> rfl

/-- The claimed contents of the whole output array: at (n, j), the network applied to node n's aggregated row. -/
def whole (c : Dev nD) : FVec Ideal S100000x64 .f32 := fun i =>
  tailAt (fun l => agg V c (ix2 (i 0) l)) (fun l k => matA V c (ix2 l k)) (fun k => rowP V c (ix2 0 k))
    (fun k j' => matB V c (ix2 k j')) (fun j' => rowQ V c (ix2 0 j')) (i 1)

/-- The claimed contents at explicit coordinates. -/
theorem whole_ix2 (c : Dev nD) (n : Fin 100000) (j : Fin 64) :
    whole V c (ix2 n j)
      = tailAt (fun l => agg V c (ix2 n l)) (fun l k => matA V c (ix2 l k)) (fun k => rowP V c (ix2 0 k))
          (fun k j' => matB V c (ix2 k j')) (fun j' => rowQ V c (ix2 0 j')) j := rfl

/-- Which block each window holds at grid point t: the row window and the output window are at block (t, 0), the
    four whole-array windows at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the claimed contents. -/
theorem flushed_eq (c : Dev nD) (t : Fin cfg1.N) :
    (dat1 (F := Ideal) V c).flushed 5 t = ((cfg1.win 5).blk t).view.read (Elt Ideal) (whole V c) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x64) hz, View.ld_unit_zero (S := S1x64) hz]
  obtain ⟨e00, e01, e10, e11, e20, e21, e30, e31, e40, e41, e50, e51⟩ := idx_facts t
  funext y
  obtain ⟨r, j, rfl⟩ : ∃ (r : Fin 10000) (j : Fin 64), y = ix2 r j := ⟨y 0, y 1, eq_ix2 y⟩
  have ht : t.val < 10 := lt_of_lt_of_eq t.isLt N_1
  have hr : r.val < 10000 := r.isLt
  have hn : t.val * 10000 + r.val < 100000 := by omega
  have he5 : ((cfg1.win 5).blk t).view.emb (ix2 r j) = ix2 (⟨t.val * 10000 + r.val, hn⟩ : Fin 100000) j := by
    funext a; apply Fin.ext
    match a with
    | ⟨0, _⟩ => show win1_5.index t (0 : Fin 2) * 10000 + 1 * r.val = t.val * 10000 + r.val; omega
    | ⟨1, _⟩ => show win1_5.index t (1 : Fin 2) * 64 + 1 * j.val = j.val; omega
  have h0 : ∀ l : Fin 64, iblk1 V c 0 t (ix2 r l) = agg V c (ix2 (⟨t.val * 10000 + r.val, hn⟩ : Fin 100000) l) := fun l => by
    show V c main_v24 (((cfg1.win 0).blk t).view.emb (ix2 r l)) = V c main_v24 _
    refine congrArg (V c main_v24) (funext fun a => Fin.ext ?_)
    match a with
    | ⟨0, _⟩ => show win1_0.index t (0 : Fin 2) * 10000 + 1 * r.val = t.val * 10000 + r.val; omega
    | ⟨1, _⟩ => show win1_0.index t (1 : Fin 2) * 64 + 1 * l.val = l.val; omega
  have h1 : ∀ l k : Fin 64, iblk1 V c 1 t (ix2 l k) = matA V c (ix2 l k) := fun l k => by
    show V c main_arg8 (((cfg1.win 1).blk t).view.emb (ix2 l k)) = V c main_arg8 _
    refine congrArg (V c main_arg8) (funext fun a => Fin.ext ?_)
    match a with
    | ⟨0, _⟩ => show win1_1.index t (0 : Fin 2) * 64 + 1 * l.val = l.val; omega
    | ⟨1, _⟩ => show win1_1.index t (1 : Fin 2) * 64 + 1 * k.val = k.val; omega
  have h2 : ∀ k : Fin 64, iblk1 V c 2 t (ix2 (0 : Fin 1) k) = rowP V c (ix2 (0 : Fin 1) k) := fun k => by
    show V c main_v25 (((cfg1.win 2).blk t).view.emb (ix2 (0 : Fin 1) k)) = V c main_v25 _
    refine congrArg (V c main_v25) (funext fun a => Fin.ext ?_)
    match a with
    | ⟨0, _⟩ => show win1_2.index t (0 : Fin 2) * 1 + 1 * (0 : Fin 1).val = (0 : Fin 1).val; omega
    | ⟨1, _⟩ => show win1_2.index t (1 : Fin 2) * 64 + 1 * k.val = k.val; omega
  have h3 : ∀ k j' : Fin 64, iblk1 V c 3 t (ix2 k j') = matB V c (ix2 k j') := fun k j' => by
    show V c main_arg10 (((cfg1.win 3).blk t).view.emb (ix2 k j')) = V c main_arg10 _
    refine congrArg (V c main_arg10) (funext fun a => Fin.ext ?_)
    match a with
    | ⟨0, _⟩ => show win1_3.index t (0 : Fin 2) * 64 + 1 * k.val = k.val; omega
    | ⟨1, _⟩ => show win1_3.index t (1 : Fin 2) * 64 + 1 * j'.val = j'.val; omega
  have h4 : ∀ j' : Fin 64, iblk1 V c 4 t (ix2 (0 : Fin 1) j') = rowQ V c (ix2 (0 : Fin 1) j') := fun j' => by
    show V c main_v26 (((cfg1.win 4).blk t).view.emb (ix2 (0 : Fin 1) j')) = V c main_v26 _
    refine congrArg (V c main_v26) (funext fun a => Fin.ext ?_)
    match a with
    | ⟨0, _⟩ => show win1_4.index t (0 : Fin 2) * 1 + 1 * (0 : Fin 1).val = (0 : Fin 1).val; omega
    | ⟨1, _⟩ => show win1_4.index t (1 : Fin 2) * 64 + 1 * j'.val = j'.val; omega
  show k1_pay1 (F := Ideal) (iblk1 V c 0 t) (iblk1 V c 1 t) (iblk1 V c 2 t) (iblk1 V c 3 t) (iblk1 V c 4 t) (ix2 r j)
    = whole V c (((cfg1.win 5).blk t).view.emb (ix2 r j))
  rw [he5, whole_ix2]
  refine (body_apply (iblk1 V c 0 t) (iblk1 V c 1 t) (iblk1 V c 2 t) (iblk1 V c 3 t) (iblk1 V c 4 t) r j).trans ?_
  simp only [h0, h1, h2, h3, h4]

/-- An index of the array is in point t's block iff each coordinate is in the block's range on its axis. -/
theorem mem_blk (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v27).slice (win1_5.rect t)).set ↔ _
  rw [View.set_slice_whole, Rect.mem_set_unit]
  exact Iff.rfl

/-- The ten blocks of 10,000 rows tile the array: row n lies in the block of point n / 10000. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, lt_of_lt_of_eq (by omega) N_1.symm⟩, rfl⟩
  obtain ⟨_, _, _, _, _, _, _, _, _, _, e50, e51⟩ := idx_facts t
  refine ⟨t, flush1_5 t, ?_⟩
  rw [mem_blk]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 64 ≤ (i 1).val ∧ (i 1).val < win1_5.index t (1 : Fin 2) * 64 + 64
    omega

/-- The output array after the run is the claimed contents. -/
theorem outArr_eq (c : Dev nD) : outArr V c = whole V c :=
  (dat1 (F := Ideal) V c).arrAt_eq_of_cover 5 (whole V c) (fun t _ => flushed_eq V c t) cover

/-- Entry (n, j) of the region's output is the interaction network applied to node n's aggregated row. -/
theorem out (c : Dev nD) (n : Fin 100000) (j : Fin 64) :
    outArr V c (ix2 n j)
      = tailAt (fun l => agg V c (ix2 n l)) (fun l k => matA V c (ix2 l k)) (fun k => rowP V c (ix2 0 k))
          (fun k j' => matB V c (ix2 k j')) (fun j' => rowQ V c (ix2 0 j')) j := by
  rw [outArr_eq, whole_ix2]

end Cert.Cfc.Region1

end
-- ==== Proof.RefCoef.lean ====
/-
  The reference's per-edge coefficient, entry by entry.

  The reference forms, for edge e and output filter g, the second filter layer Σ_f h_f·W_fg + β_g of the hidden
  units h_f = tanh((0.4·d_e − 1)·a_f + b_f), multiplies it by the cosine cutoff of d_e, and sums over g starting
  from zero. Read at e through the host operations one at a time, that is the filter-by-filter form of the edge
  coefficient.
-/
import proofs.«406212_j60361470378647_2_alg».proof.Proof.Gen.ReferenceIdeal.Read
import proofs.«406212_j60361470378647_2_alg».proof.Proof.Spec
import Idealize.ShloMosaic.Lib.ValueIdx
import Idealize.ShloMosaic.PureOps.Ideal.Laws

noncomputable section

namespace Cert.Cfc.RefCoef

open Cert.ReferenceIdeal Cert.ReferenceIdeal.Gen Cert.ReferenceIdeal.Read Cert.Cfc
open Idealize.ShloMosaic Idealize.ShloMosaic.ValueIdx

/-- The hidden unit: the tanh stage read at edge e and filter f is h_f of the distance of e, through the two
    broadcasts of the scaled distance 0.4·d − 1 and the row broadcasts of the first layer's weight and bias. -/
theorem hid_at (x2 : FVec Ideal S3200000 .f32) (x4 x5 : FVec Ideal S64 .f32) (e : Fin 3200000) (f : Fin 64) :
    val_main_v16 (F := Ideal) x2 x4 x5 (ix2 e f) = hid (x2 (ix1 e)) (x4 (ix1 f)) (x5 (ix1 f)) := by
  have hd : idx_main_v8 (idx_main_v10 (ix2 e f)) = ix1 e :=
    funext fun a => Fin.ext (by match a with | ⟨0, _⟩ => rfl)
  have ha : idx_main_v9 (idx_main_v11 (ix2 e f)) = ix1 f :=
    funext fun a => Fin.ext (by match a with | ⟨0, _⟩ => rfl)
  have hb : idx_main_v13 (idx_main_v14 (ix2 e f)) = ix1 f :=
    funext fun a => Fin.ext (by match a with | ⟨0, _⟩ => rfl)
  rw [val_main_v16_apply, val_main_v15_apply, val_main_v12_apply, val_main_v10_apply, val_main_v8_apply, hd,
    val_main_v7_apply, val_main_v5_apply, val_main_v4_apply, val_main_cst_apply, val_main_v6_apply,
    val_main_cst_0_apply, val_main_v11_apply, val_main_v9_apply, ha, val_main_v14_apply, val_main_v13_apply, hb]
  rfl

/-- The cutoff column: the broadcast of the selected cutoff read at edge e, any filter g, is the cosine cutoff of
    the distance of e. -/
theorem cut_at (x2 : FVec Ideal S3200000 .f32) (e : Fin 3200000) (g : Fin 64) :
    val_main_v34 (F := Ideal) x2 (ix2 e g) = cutoff (x2 (ix1 e)) := by
  have hc : idx_main_v33 (idx_main_v34 (ix2 e g)) = ix1 e :=
    funext fun a => Fin.ext (by match a with | ⟨0, _⟩ => rfl)
  rw [val_main_v34_apply, val_main_v33_apply, hc, val_main_v32_apply, val_main_v31_apply, val_main_v30_apply,
    val_main_cst_5_apply, val_main_v29_apply, val_main_v28_apply, val_main_cst_4_apply, val_main_v27_apply,
    val_main_v25_apply, val_main_v24_apply, val_main_v22_apply, val_main_v21_apply, val_main_cst_1_apply,
    val_main_v23_apply, val_main_cst_2_apply, val_main_v26_apply, val_main_cst_3_apply, val_main_call0_v1_apply,
    val_main_call0_v0_apply, val_main_cst_6_apply]
  rfl

/-- The second filter layer at edge e and output filter g: Σ_f h_f·W_fg + β_g. -/
theorem layer_at (x2 : FVec Ideal S3200000 .f32) (x4 x5 : FVec Ideal S64 .f32) (x6 : FVec Ideal S64x64 .f32)
    (x7 : FVec Ideal S64 .f32) (e : Fin 3200000) (g : Fin 64) :
    val_main_v20 (F := Ideal) x2 x4 x5 x6 x7 (ix2 e g)
      = (∑ f, hid (x2 (ix1 e)) (x4 (ix1 f)) (x5 (ix1 f)) * x6 (ix2 f g)) + x7 (ix1 g) := by
  have hβ : idx_main_v18 (idx_main_v19 (ix2 e g)) = ix1 g :=
    funext fun a => Fin.ext (by match a with | ⟨0, _⟩ => rfl)
  rw [val_main_v20_apply, val_main_v17_apply, val_main_v19_apply, val_main_v18_apply, hβ]
  refine congrArg (· + x7 (ix1 g)) (Finset.sum_congr rfl fun f _ => ?_)
  have hl : lidx_main_v17 (ix2 e g) f = ix2 e f :=
    funext fun a => Fin.ext (by match a with | ⟨0, _⟩ => rfl | ⟨1, _⟩ => rfl)
  have hr : ridx_main_v17 (ix2 e g) f = ix2 f g :=
    funext fun a => Fin.ext (by match a with | ⟨0, _⟩ => rfl | ⟨1, _⟩ => rfl)
  rw [hl, hr, hid_at]

/-- Entry e of the reference's coefficient vector. -/
theorem coef (x2 : FVec Ideal S3200000 .f32) (x4 x5 : FVec Ideal S64 .f32) (x6 : FVec Ideal S64x64 .f32)
    (x7 : FVec Ideal S64 .f32) (e : Fin 3200000) :
    val_main_v43 (F := Ideal) x2 x4 x5 x6 x7 (ix1 e)
      = coefR (x2 (ix1 e)) (fun f => x4 (ix1 f)) (fun f => x5 (ix1 f)) (fun f g => x6 (ix2 f g)) (fun g => x7 (ix1 g)) := by
  rw [val_main_v43_apply, val_main_cst_8_apply, Ideal.ofBits_def, Ideal.ofBits_zero_f32, zero_add]
  unfold coefR
  refine Finset.sum_congr rfl fun g _ => ?_
  have hg : idx_main_v43 (ix1 e) g = ix2 e g :=
    funext fun a => Fin.ext (by match a with | ⟨0, _⟩ => rfl | ⟨1, _⟩ => rfl)
  rw [hg, val_main_v35_apply, layer_at, cut_at]
  rfl

end Cert.Cfc.RefCoef

end
-- ==== Proof.RefTail.lean ====
/-
  The reference's interaction network, entry by entry, over its aggregated messages.

  From the scatter-added array agg the reference computes softplus(agg·A + p)·B + q, softplus written as
  max(h, 0) + log(1 + e^{−|h|}) behind a test h ≠ h that no extended real passes. Read at (n, j) through the host
  operations one at a time, with the aggregated array left as it is, that is the interaction network applied
  to row n of agg.
-/
import proofs.«406212_j60361470378647_2_alg».proof.Proof.Gen.ReferenceIdeal.Read
import proofs.«406212_j60361470378647_2_alg».proof.Proof.Spec
import Idealize.ShloMosaic.Lib.ValueIdx
import Idealize.ShloMosaic.PureOps.Ideal.Laws

noncomputable section

namespace Cert.Cfc.RefTail

open Cert.ReferenceIdeal Cert.ReferenceIdeal.Gen Cert.ReferenceIdeal.Read Cert.Cfc
open Idealize.ShloMosaic Idealize.ShloMosaic.ValueIdx

/-- On the extended reals no value differs from itself: the test `h ≠ h` gives the bit `0`. -/
theorem cmp_une_self (x : EReal) : Ideal.cmp .une x x = 0#1 := by
  simp [Ideal.cmp]

/-- The reference's softplus at an index is `sp` of the value going in: the test `h ≠ h` fails, so the select takes
    `max(h, 0) + log(1 + e^{−|h − 0|})`, and `h − 0 = h`. -/
theorem softplus_at (x0 : FVec Ideal S100000x64 .f32) (x1 : IVec S2x3200000 32) (x2 : FVec Ideal S3200000 .f32)
    (x4 x5 : FVec Ideal S64 .f32) (x6 : FVec Ideal S64x64 .f32) (x7 : FVec Ideal S64 .f32)
    (x8 : FVec Ideal S64x64 .f32) (x9 : FVec Ideal S64 .f32) (i : S100000x64.Idx) :
    val_main_v59 (F := Ideal) x0 x1 x2 x4 x5 x6 x7 x8 x9 i
      = sp (val_main_v58 (F := Ideal) x0 x1 x2 x4 x5 x6 x7 x8 x9 i) := by
  rw [val_main_v59_apply, val_main_call1_v4_apply, Ideal.cmpf_def, cmp_une_self, select_zero,
    val_main_call1_v11_apply, val_main_call1_v1_apply, val_main_call1_v10_apply, val_main_call1_v9_apply,
    val_main_call1_v8_apply, val_main_call1_v7_apply, val_main_call1_v3_apply, val_main_call1_v0_apply,
    val_main_call1_v2_apply, val_main_call1_cst_apply]
  generalize val_main_v58 (F := Ideal) x0 x1 x2 x4 x5 x6 x7 x8 x9 i = h
  simp only [Ideal.addf_def, Ideal.maximumf_def, Ideal.subf_def, Ideal.hostUnary_log1p_def, Ideal.hostUnary_exp_def,
    Ideal.hostNegf_def, Ideal.negf_def, Ideal.hostAbsf_def, Ideal.absf_def, Ideal.ofBits_def, Ideal.ofBits_zero_f32,
    sub_zero, sp]

/-- The value going into the softplus at `(n, k)`: row `n` of the aggregated array against column `k` of the first
    weight matrix, plus the first bias at `k`. -/
theorem pre_at (x0 : FVec Ideal S100000x64 .f32) (x1 : IVec S2x3200000 32) (x2 : FVec Ideal S3200000 .f32)
    (x4 x5 : FVec Ideal S64 .f32) (x6 : FVec Ideal S64x64 .f32) (x7 : FVec Ideal S64 .f32)
    (x8 : FVec Ideal S64x64 .f32) (x9 : FVec Ideal S64 .f32) (n : Fin 100000) (k : Fin 64) :
    val_main_v58 (F := Ideal) x0 x1 x2 x4 x5 x6 x7 x8 x9 (ix2 n k)
      = (∑ l : Fin 64, val_main_v54 (F := Ideal) x0 x1 x2 x4 x5 x6 x7 (ix2 n l) * x8 (ix2 l k)) + x9 (ix1 k) := by
  have el : ∀ l : Fin 64, lidx_main_v55 (ix2 n k) l = ix2 n l := fun l =>
    funext fun a => Fin.ext (by match a with | ⟨0, _⟩ => rfl | ⟨1, _⟩ => rfl)
  have er : ∀ l : Fin 64, ridx_main_v55 (ix2 n k) l = ix2 l k := fun l =>
    funext fun a => Fin.ext (by match a with | ⟨0, _⟩ => rfl | ⟨1, _⟩ => rfl)
  have eb : idx_main_v56 (idx_main_v57 (ix2 n k)) = ix1 k :=
    funext fun a => Fin.ext (by match a with | ⟨0, _⟩ => rfl)
  rw [val_main_v58_apply, val_main_v55_apply, val_main_v57_apply, val_main_v56_apply, eb, Ideal.addf_def]
  simp only [el, er]

/-- Entry (n, j) of the reference's result over its aggregated array `val_main_v54`. -/
theorem tail (x0 : FVec Ideal S100000x64 .f32) (x1 : IVec S2x3200000 32) (x2 : FVec Ideal S3200000 .f32)
    (x4 x5 : FVec Ideal S64 .f32) (x6 : FVec Ideal S64x64 .f32) (x7 : FVec Ideal S64 .f32)
    (x8 : FVec Ideal S64x64 .f32) (x9 : FVec Ideal S64 .f32) (x10 : FVec Ideal S64x64 .f32) (x11 : FVec Ideal S64 .f32)
    (n : Fin 100000) (j : Fin 64) :
    val_main_v63 (F := Ideal) x0 x1 x2 x4 x5 x6 x7 x8 x9 x10 x11 (ix2 n j)
      = tailAt (fun l => val_main_v54 (F := Ideal) x0 x1 x2 x4 x5 x6 x7 (ix2 n l)) (fun l k => x8 (ix2 l k))
          (fun k => x9 (ix1 k)) (fun k j' => x10 (ix2 k j')) (fun j' => x11 (ix1 j')) j := by
  have el : ∀ k : Fin 64, lidx_main_v60 (ix2 n j) k = ix2 n k := fun k =>
    funext fun a => Fin.ext (by match a with | ⟨0, _⟩ => rfl | ⟨1, _⟩ => rfl)
  have er : ∀ k : Fin 64, ridx_main_v60 (ix2 n j) k = ix2 k j := fun k =>
    funext fun a => Fin.ext (by match a with | ⟨0, _⟩ => rfl | ⟨1, _⟩ => rfl)
  have eb : idx_main_v61 (idx_main_v62 (ix2 n j)) = ix1 j :=
    funext fun a => Fin.ext (by match a with | ⟨0, _⟩ => rfl)
  rw [val_main_v63_apply, val_main_v60_apply, val_main_v62_apply, val_main_v61_apply, eb, Ideal.addf_def]
  simp only [el, er, softplus_at, pre_at, tailAt]

end Cert.Cfc.RefTail

end
-- ==== Proof.PreDecode.lean ====
/-
  What the precondition says, entry by entry.

  The precondition is the conjunction, over the float inputs, of "every entry's absolute value is below +∞", and of
  "every source node number (row 1 of the edge list) lies in [0, 100000)". Of the float inputs only the distances
  and the filter network's four parameter arrays are read here: an entry whose absolute value is below +∞ is a
  real number.
-/
import proofs.«406212_j60361470378647_2_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value
import Idealize.ShloMosaic.PureOps.Ideal.Laws

noncomputable section

namespace Cert.Cfc.PreDecode

open Cert.Pre_finite_inputs Cert.Pre_finite_inputs.Gen
open Idealize.ShloMosaic Idealize.ShloMosaic.ValueIdx

/-- The rank-0 shape has one index. -/
local instance : Subsingleton S_.Idx := ⟨fun a b => funext fun d => d.elim0⟩

/-- An extended real whose absolute value max(x, −x) is below +∞ is a real number: −∞ and +∞ both have absolute
    value +∞. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- "All entries of |x| are below +∞", reduced by "and" over every axis to one bit that is 1: every entry of x is a
    real number. -/
theorem finite_of_all {s : Shape} {axes : List (Fin s.rank)} (x : FVec Ideal s .f32) (hb : S_.BroadcastsInDim s ![])
    (init : IVec S_ 1) (hr : s.ReducesTo axes S_) (hu : 0 < S_.numel)
    (e : Host.reduce IntOp.andi (cmpf .olt (Host.absf x) (broadcastInDim s ![] hb (constant S_ .f32 0x7F800000#32))) init hr hu ix0
      = 1#1)
    (i : s.Idx) : ∃ r : ℝ, x i = (r : EReal) :=
  real_of_abs_lt_inf (x i) (Host.reduce_andi_all _ init hr hu ix0 e i)

/-- A word in [0, 100000) read signed is below 100000 read unsigned: a nonnegative signed word reads the same both
    ways. -/
theorem toNat_lt_of_cmp (w : BitVec 32) (h0 : IntOp.cmpi .sge w 0#32 = 1#1) (h1 : IntOp.cmpi .slt w 100000#32 = 1#1) :
    w.toNat < 100000 := by
  rw [IntOp.cmpi_sge, show (0#32 : BitVec 32).toInt = 0 from by decide] at h0
  rw [IntOp.cmpi_slt, show (100000#32 : BitVec 32).toInt = 100000 from by decide] at h1
  have h2 : 2 * w.toNat < 2 ^ 32 := BitVec.toInt_pos_iff.1 h0
  rw [BitVec.toInt_eq_toNat_of_lt h2] at h1
  omega

/-- A conjunction of two one-bit scalars that is 1: both are 1. -/
theorem andi_ix0 (a b : IVec S_ 1) (h : andi a b ix0 = 1#1) : a ix0 = 1#1 ∧ b ix0 = 1#1 := IntOp.andi_eq_one.1 h

/-- Entry e of row 1 of the edge list, read through the slice of that row and its reshape to a vector. -/
theorem col_apply (x1 : IVec S2x3200000 32) (hs : S2x3200000.Slices ![1, 0] S1x3200000) (hc : S1x3200000.ShapeCasts S3200000)
    (e : Fin 3200000) :
    shapeCast S3200000 (extractStridedSlice S1x3200000 ![1, 0] x1 hs) hc (ix1 e) = x1 (ix2 1 e) := by
  refine (shapeCast_dropUnit_apply ![3200000] _ hc (ix1 e)).trans ?_
  refine extractStridedSlice_apply _ x1 hs _ (ix2 1 e) fun a => ?_
  match a with
  | ⟨0, _⟩ => rfl
  | ⟨1, _⟩ => exact (Nat.zero_add _).symm

/-- "Every entry of row 1 of the edge list is ≥ 0 and < 100000 (signed)", reduced by "and" to one bit that is 1: every
    entry of that row is a word below 100000. -/
theorem range_of_all (x1 : IVec S2x3200000 32) (hs : S2x3200000.Slices ![1, 0] S1x3200000)
    (hc : S1x3200000.ShapeCasts S3200000) (hb : S_.BroadcastsInDim S3200000 ![]) (init : IVec S_ 1)
    (hr : S3200000.ReducesTo [0] S_) (hu : 0 < S_.numel)
    (h : Host.reduce IntOp.andi
        (andi
          (cmpi .sge (shapeCast S3200000 (extractStridedSlice S1x3200000 ![1, 0] x1 hs) hc)
            (broadcastInDim S3200000 ![] hb (constantI S_ 32 0#32)))
          (cmpi .slt (shapeCast S3200000 (extractStridedSlice S1x3200000 ![1, 0] x1 hs) hc)
            (broadcastInDim S3200000 ![] hb (constantI S_ 32 100000#32))))
        init hr hu ix0 = 1#1)
    (e : Fin 3200000) : (x1 (ix2 1 e)).toNat < 100000 := by
  have h1 := Host.reduce_andi_all _ init hr hu ix0 h (ix1 e)
  obtain ⟨ha, hb'⟩ := IntOp.andi_eq_one.1 h1
  rw [← col_apply x1 hs hc e]
  exact toNat_lt_of_cmp _ ha hb'

/-- Under the precondition the distances and the filter network's parameters are real numbers, and every source
    node number is a word in [0, 100000). -/
theorem of_pre (x0 : FVec Ideal S100000x64 .f32) (x1 : IVec S2x3200000 32) (x2 : FVec Ideal S3200000 .f32)
    (x3 : FVec Ideal S3200000x1 .f32) (x4 x5 : FVec Ideal S64 .f32) (x6 : FVec Ideal S64x64 .f32) (x7 : FVec Ideal S64 .f32)
    (x8 : FVec Ideal S64x64 .f32) (x9 : FVec Ideal S64 .f32) (x10 : FVec Ideal S64x64 .f32) (x11 : FVec Ideal S64 .f32)
    (h : Cert.Pre_finite_inputs.fn (F := Ideal) x0 x1 x2 x3 x4 x5 x6 x7 x8 x9 x10 x11 = fun _ => 1#1) :
    (∀ e : Fin 3200000, ∃ r : ℝ, x2 (ix1 e) = (r : EReal))
    ∧ (∀ f : Fin 64, ∃ r : ℝ, x4 (ix1 f) = (r : EReal))
    ∧ (∀ f : Fin 64, ∃ r : ℝ, x5 (ix1 f) = (r : EReal))
    ∧ (∀ (f g : Fin 64), ∃ r : ℝ, x6 (ix2 f g) = (r : EReal))
    ∧ (∀ g : Fin 64, ∃ r : ℝ, x7 (ix1 g) = (r : EReal))
    ∧ (∀ e : Fin 3200000, (x1 (ix2 1 e)).toNat < 100000) := by
  have e := congrFun h ix0
  unfold Cert.Pre_finite_inputs.fn Cert.Pre_finite_inputs.fn_part1 Cert.Pre_finite_inputs.fn_part2
    Cert.Pre_finite_inputs.fn_part3 at e
  dsimp only at e
  obtain ⟨e, hI⟩ := andi_ix0 _ _ e
  obtain ⟨e, h11⟩ := andi_ix0 _ _ e
  obtain ⟨e, h10⟩ := andi_ix0 _ _ e
  obtain ⟨e, h9⟩ := andi_ix0 _ _ e
  obtain ⟨e, h8⟩ := andi_ix0 _ _ e
  obtain ⟨e, h7⟩ := andi_ix0 _ _ e
  obtain ⟨e, h6⟩ := andi_ix0 _ _ e
  obtain ⟨e, h5⟩ := andi_ix0 _ _ e
  obtain ⟨e, h4⟩ := andi_ix0 _ _ e
  obtain ⟨e, h3⟩ := andi_ix0 _ _ e
  obtain ⟨h0, h2⟩ := andi_ix0 _ _ e
  exact ⟨fun i => finite_of_all x2 _ _ _ _ h2 (ix1 i), fun i => finite_of_all x4 _ _ _ _ h4 (ix1 i),
    fun i => finite_of_all x5 _ _ _ _ h5 (ix1 i), fun f g => finite_of_all x6 _ _ _ _ h6 (ix2 f g),
    fun i => finite_of_all x7 _ _ _ _ h7 (ix1 i), fun i => range_of_all x1 _ _ _ _ _ _ hI i⟩

end Cert.Cfc.PreDecode

end
-- ==== Proof.Take.lean ====
/-
  In range, the take is the gather.

  The kernel's program reads a neighbour row through a take that first wraps a negative node number by the node
  count, then tests the wrapped number against [0, 99999] and returns a fill row where the test fails. A source
  node number in [0, 100000) is not negative, is left as it is by the wrap and passes the test, so on such edges
  the row taken is the row gathered.
-/
import proofs.«406212_j60361470378647_2_alg».proof.Proof.HostTerms
import Idealize.ShloMosaic.Lib.StableHlo.Predicate
import Idealize.ShloMosaic.Lib.ReduceAll
import Idealize.ShloMosaic.Lib.ValueIdx
import Idealize.ShloMosaic.Lib.Pipeline.Value

noncomputable section

namespace Cert.Cfc.HostK

open Cert.KernelIdeal Cert.KernelIdeal.Gen Idealize.ShloMosaic Idealize.ShloMosaic.ValueIdx

/-- A left fold by `and` over one-bit words that starts at 1 and meets only 1s ends at 1. -/
private theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduce by `and` from the initial value 1 over an array of 1s is 1 at every result index. -/
private theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x hx _

/-- A word below 100000 is not negative, … -/
private theorem word_not_neg (w : BitVec 32) (hw : w.toNat < 100000) : IntOp.cmpi .slt w 0#32 = 0#1 := by
  refine eq_zero_of_ne_one fun h1 => ?_
  have := (StableHlo.Predicate.slt_iff_toNat (a := w) (b := 0#32) (by omega) (by decide)).1 h1
  simp at this

/-- … is at least 0 … -/
private theorem word_sge_zero (w : BitVec 32) (hw : w.toNat < 100000) : IntOp.cmpi .sge w 0#32 = 1#1 :=
  (StableHlo.Predicate.sge_iff_toNat (a := w) (b := 0#32) (by omega) (by decide)).2 (by simp)

/-- … and at most 99999. -/
private theorem word_sle_top (w : BitVec 32) (hw : w.toNat < 100000) : IntOp.cmpi .sle w 99999#32 = 1#1 :=
  (StableHlo.Predicate.sle_iff_toNat (a := w) (b := 99999#32) (by omega) (by decide)).2
    (by rw [show (99999#32).toNat = 99999 from by decide]; omega)

/-- Row 1 of the edge list read at an edge is the edge's source node number. -/
private theorem edgeRow1_apply (x1 : IVec S2x3200000 32) (e : Fin 3200000) : edgeRow1 x1 (ix1 e) = x1 (ix2 1 e) := by
  unfold edgeRow1
  refine (shapeCast_apply _ shapeCasts_S1x3200000_S3200000 (ix1 e) (ix2 (0 : Fin 1) e) (by
    rw [Shape.rowMajor_val_two, Shape.rowMajor_val_one]; show 0 * 3200000 + e.val = e.val; omega)).trans ?_
  exact extractStridedSlice_apply ![1, 0] x1 slices_S2x3200000_S1x3200000_1_0 (ix2 (0 : Fin 1) e) (ix2 (1 : Fin 2) e)
    (fun a => match a with
      | ⟨0, _⟩ => rfl
      | ⟨1, _⟩ => by show e.val = 0 + e.val; omega)

/-- The wrap leaves a node number below 100000 as it is. -/
private theorem wrap_apply (x1 : IVec S2x3200000 32) (e : Fin 3200000) (he : (x1 (ix2 1 e)).toNat < 100000) :
    wrap (edgeRow1 x1) (ix1 e) = x1 (ix2 1 e) := by
  unfold wrap
  rw [select_apply]
  show Scalar.select (IntOp.cmpi .slt (edgeRow1 x1 (ix1 e)) 0#32) _ (edgeRow1 x1 (ix1 e)) = _
  rw [edgeRow1_apply, word_not_neg _ he, select_zero]

/-- The column of start indices read at an edge is the edge's source node number. -/
private theorem asCol_apply (x1 : IVec S2x3200000 32) (e : Fin 3200000) (z : Fin 1) (he : (x1 (ix2 1 e)).toNat < 100000) :
    asCol (wrap (edgeRow1 x1)) (ix2 e z) = x1 (ix2 1 e) := by
  unfold asCol
  refine (broadcastInDim_apply ![0] bcast_S3200000_S3200000x1_0 (wrap (edgeRow1 x1)) (ix2 e z) (ix1 e)
    (fun a => match a with | ⟨0, _⟩ => rfl)).trans ?_
  exact wrap_apply x1 e he

/-- With every source node number a word below 100000, the rows taken are the rows gathered. -/
theorem taken_eq_gathered (x0 : FVec Ideal S100000x64 .f32) (x1 : IVec S2x3200000 32)
    (h : ∀ e : Fin 3200000, (x1 (ix2 1 e)).toNat < 100000) :
    taken (F := Ideal) x0 (asCol (wrap (edgeRow1 x1))) = gathered (F := Ideal) x0 (asCol (wrap (edgeRow1 x1))) := by
  funext i
  obtain ⟨e, c, rfl⟩ : ∃ (e : Fin 3200000) (c : Fin 64), i = ix2 e c := ⟨i 0, i 1, eq_ix2 i⟩
  unfold taken
  rw [select_apply]
  have hbit : broadcastInDim S3200000x64 ![0] bcast_S3200000_S3200000x64_0 (inRange (asCol (wrap (edgeRow1 x1)))) (ix2 e c) = 1#1 := by
    refine (broadcastInDim_apply ![0] bcast_S3200000_S3200000x64_0 (inRange (asCol (wrap (edgeRow1 x1)))) (ix2 e c) (ix1 e)
      (fun a => match a with | ⟨0, _⟩ => rfl)).trans ?_
    unfold inRange
    refine reduce_andi_ones _ _ _ _ rfl (fun k => ?_) _
    obtain ⟨e', z, rfl⟩ : ∃ (e' : Fin 3200000) (z : Fin 1), k = ix2 e' z := ⟨k 0, k 1, eq_ix2 k⟩
    show IntOp.andi (IntOp.cmpi .sge (asCol (wrap (edgeRow1 x1)) (ix2 e' z)) 0#32)
      (IntOp.cmpi .sle (asCol (wrap (edgeRow1 x1)) (ix2 e' z)) 99999#32) = 1#1
    rw [asCol_apply x1 e' z (h e'), word_sge_zero _ (h e'), word_sle_top _ (h e')]
    decide
  rw [hbit, select_one]

end Cert.Cfc.HostK

end
-- ==== Proof.CoefLaw.lean ====
/-
  The two forms of the edge coefficient agree on real data.

  With h_f, W_fg, β_g and c = c(d) real numbers,
      Σ_g ((Σ_f h_f·W_fg + β_g)·c) = ((Σ_f h_f·(Σ_g W_fg)) + Σ_g β_g)·c :
  pull c out of the sum over g, split the sum of sums, and exchange the sums over f and g. Each step is an identity of
  the real numbers; on the extended reals it needs every term finite, which holds because tanh and cos of a real
  number are real, a real number divided by the nonzero real 5 is real, and the literals are real.
-/
import proofs.«406212_j60361470378647_2_alg».proof.Proof.Spec
import Mathlib.Algebra.BigOperators.Ring.Finset
import Mathlib.Data.EReal.Operations

noncomputable section

namespace Cert.Cfc

open Idealize.ShloMosaic

/-- A 32-bit pattern whose exponent field is not all ones denotes a real number. -/
theorem lit_real (w : BitVec 32) (h : (w.extractLsb' 23 8).toNat ≠ 2 ^ 8 - 1) :
    ∃ r : ℝ, lit w = (r : EReal) := by
  show ∃ r : ℝ, Ideal.ieee 8 23 w = (r : EReal)
  unfold Ideal.ieee
  simp only [if_neg h]
  split_ifs <;> exact ⟨_, rfl⟩

/-- The cutoff radius: the pattern of 5.0 denotes the real number 5. -/
theorem lit_five : lit 0x40A00000#32 = ((5 : ℝ) : EReal) := by
  simp [lit, Ideal.ofBits, Ideal.ieee, -EReal.coe_mul]; norm_num

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A hidden unit on real data is a real number: tanh of a real is real. -/
theorem hid_coe (d a b : ℝ) : ∃ h : ℝ, hid (d : EReal) (a : EReal) (b : EReal) = (h : EReal) := by
  obtain ⟨r₁, h₁⟩ := lit_real 0x3ECCCCCD#32 (by decide)
  obtain ⟨r₂, h₂⟩ := lit_real 0x3F800000#32 (by decide)
  refine ⟨Real.tanh ((d * r₁ - r₂) * a + b), ?_⟩
  rw [hid, h₁, h₂, ← EReal.coe_mul, ← EReal.coe_sub, ← EReal.coe_mul, ← EReal.coe_add, Ideal.tanh_coe]

/-- The cutoff at a real distance is a real number: inside the radius it is ½(cos(π·d/5) + 1), a real because
    the divisor 5 is a nonzero real and cos of a real is real; outside it is 0. -/
theorem cutoff_coe (d : ℝ) : ∃ c : ℝ, cutoff (d : EReal) = (c : EReal) := by
  obtain ⟨r₁, h₁⟩ := lit_real 0x3F000000#32 (by decide)
  obtain ⟨r₂, h₂⟩ := lit_real 0x40490FDB#32 (by decide)
  obtain ⟨r₃, h₃⟩ := lit_real 0x3F800000#32 (by decide)
  rw [cutoff, Scalar.select]
  split_ifs
  · refine ⟨r₁ * (Real.cos (d * r₂ * (1 / 5 : ℝ)) + r₃), ?_⟩
    rw [h₁, h₂, h₃, lit_five, Ideal.div_coe (by norm_num), ← EReal.coe_mul, ← EReal.coe_mul, Ideal.cos_coe,
      ← EReal.coe_add, ← EReal.coe_mul]
  · exact ⟨0, Ideal.ofBits_zero_f32.trans EReal.coe_zero.symm⟩

/-- The identity on the reals: pull c out of the sum over g, split the sum of sums, exchange the two sums. -/
theorem coef_real (h : Fin 64 → ℝ) (W : Fin 64 → Fin 64 → ℝ) (β : Fin 64 → ℝ) (c : ℝ) :
    ∑ g, ((∑ f, h f * W f g) + β g) * c = ((∑ f, h f * ∑ g, W f g) + ∑ g, β g) * c := by
  rw [← Finset.sum_mul, Finset.sum_add_distrib, Finset.sum_comm]
  simp only [Finset.mul_sum]

/-- For real data the two forms of the edge coefficient agree. -/
theorem coef_eq (d : ℝ) (a b : Fin 64 → ℝ) (W : Fin 64 → Fin 64 → ℝ) (β : Fin 64 → ℝ) :
    coefR (d : EReal) (fun f => (a f : EReal)) (fun f => (b f : EReal)) (fun f g => (W f g : EReal)) (fun g => (β g : EReal))
      = coefK (d : EReal) (fun f => (a f : EReal)) (fun f => (b f : EReal)) (fun f => ∑ g, (W f g : EReal)) (∑ g, (β g : EReal)) := by
  choose h hh using fun f => hid_coe d (a f) (b f)
  obtain ⟨c, hc⟩ := cutoff_coe d
  simp only [coefR, coefK, hh, hc]
  simp only [← coe_sum, ← EReal.coe_mul, ← EReal.coe_add]
  rw [coef_real]

end Cert.Cfc

end
-- ==== Proof.AggBridge.lean ====
/-
  The aggregated messages are one array in both programs.

  Both programs scatter-add, at the wrapped target node of each edge, the gathered neighbour row times a per-edge
  scalar laid along the 64 feature columns, into a zero array; both wrap a negative node number by the node count
  the same way. Written over the same per-edge scalar vector and with the gather in place of the take, the kernel
  program's term and the reference's are the same operations in the same order, so they are equal as they stand.
-/
import proofs.«406212_j60361470378647_2_alg».proof.Proof.HostTerms
import proofs.«406212_j60361470378647_2_alg».proof.Proof.Gen.ReferenceIdeal.Read

set_option maxRecDepth 16384

noncomputable section

namespace Cert.Cfc.AggBridge

open Idealize.ShloMosaic Cert.Cfc Cert.ReferenceIdeal.Read

/-- The kernel program's aggregated array, with the gathered rows and the reference's coefficient vector, is the
    reference's aggregated array. -/
theorem agg_eq (x0 : FVec Ideal Cert.KernelIdeal.S100000x64 .f32) (x1 : IVec Cert.KernelIdeal.S2x3200000 32)
    (x2 : FVec Ideal Cert.ReferenceIdeal.S3200000 .f32) (x4 x5 : FVec Ideal Cert.ReferenceIdeal.S64 .f32)
    (x6 : FVec Ideal Cert.ReferenceIdeal.S64x64 .f32) (x7 : FVec Ideal Cert.ReferenceIdeal.S64 .f32) :
    HostK.scattered (F := Ideal) (HostK.asCol (HostK.wrap (HostK.edgeRow0 x1)))
        (mulf (HostK.gathered (F := Ideal) x0 (HostK.asCol (HostK.wrap (HostK.edgeRow1 x1))))
          (HostK.alongCols (F := Ideal) (val_main_v43 (F := Ideal) x2 x4 x5 x6 x7)))
      = val_main_v54 (F := Ideal) x0 x1 x2 x4 x5 x6 x7 := by
  unfold val_main_v54 val_main_v47 val_main_cst_9 val_main_v53 val_main_v52 val_main_v49 val_main_v51 val_main_v48
    val_main_v50 val_main_c_10 val_main_c_11 val_main_v1 val_main_v0 val_main_v46 val_main_v42 val_main_v41
    val_main_v40 val_main_v37 val_main_v39 val_main_v36 val_main_v38 val_main_c val_main_c_7 val_main_v3 val_main_v2
    val_main_v45 val_main_v44
  unfold HostK.scattered HostK.asCol HostK.wrap HostK.edgeRow0 HostK.edgeRow1 HostK.gathered HostK.alongCols
  rfl

end Cert.Cfc.AggBridge

end
-- ==== Proof.Bridge.lean ====
/-
  The kernel's program and the reference compute one array.

  Under the precondition the distances and the filter network's parameters are real numbers and every source node
  number lies in [0, 100000). Then (i) the kernel program's take returns the gathered row on every edge; (ii) region
  0's output, read as a vector, is the reference's per-edge coefficient: entry e of either is the edge coefficient
  of edge e, once as an inner product against the second layer's row sums and once as a sum over output filters,
  and the two forms agree on real data; (iii) so the aggregated messages are one array; (iv) entry (n, j) of either
  result is the interaction network applied to row n of that array.
-/
import proofs.«406212_j60361470378647_2_alg».proof.Defs
import proofs.«406212_j60361470378647_2_alg».proof.Proof.KRun
import proofs.«406212_j60361470378647_2_alg».proof.Proof.HostReads
import proofs.«406212_j60361470378647_2_alg».proof.Proof.Layout
import proofs.«406212_j60361470378647_2_alg».proof.Proof.Region0
import proofs.«406212_j60361470378647_2_alg».proof.Proof.Region1
import proofs.«406212_j60361470378647_2_alg».proof.Proof.RefCoef
import proofs.«406212_j60361470378647_2_alg».proof.Proof.RefTail
import proofs.«406212_j60361470378647_2_alg».proof.Proof.PreDecode
import proofs.«406212_j60361470378647_2_alg».proof.Proof.Take
import proofs.«406212_j60361470378647_2_alg».proof.Proof.CoefLaw
import proofs.«406212_j60361470378647_2_alg».proof.Proof.AggBridge
import proofs.«406212_j60361470378647_2_alg».proof.Proof.Gen.Pre_finite_inputs
import Idealize.ShloMosaic.Lib.ValueLayout

set_option maxRecDepth 16384

noncomputable section

namespace Cert.Cfc.Bridge

open Cert.KernelIdeal Cert.KernelIdeal.Gen Cert.Cfc Cert.Cfc.HostK
open Idealize.ShloMosaic Idealize.ShloMosaic.TcCoe Idealize.SL.Sem Idealize.ShloMosaic.ValueIdx

variable (m : (ℓ : Loc nD τ sig) → Buf (Elt Ideal) ℓ) (ρ : Dev nD → PrngReg)

/-- The kernel program's arguments at their literal types. -/
abbrev a0 (c : Dev nD) : FVec Ideal S100000x64 .f32 := m ((c.tc : Thread nD τ).loc main_arg0)
abbrev a1 (c : Dev nD) : IVec S2x3200000 32 := m ((c.tc : Thread nD τ).loc main_arg1)
abbrev a2 (c : Dev nD) : FVec Ideal S3200000 .f32 := m ((c.tc : Thread nD τ).loc main_arg2)
abbrev a3 (c : Dev nD) : FVec Ideal S3200000x1 .f32 := m ((c.tc : Thread nD τ).loc main_arg3)
abbrev a4 (c : Dev nD) : FVec Ideal S64 .f32 := m ((c.tc : Thread nD τ).loc main_arg4)
abbrev a5 (c : Dev nD) : FVec Ideal S64 .f32 := m ((c.tc : Thread nD τ).loc main_arg5)
abbrev a6 (c : Dev nD) : FVec Ideal S64x64 .f32 := m ((c.tc : Thread nD τ).loc main_arg6)
abbrev a7 (c : Dev nD) : FVec Ideal S64 .f32 := m ((c.tc : Thread nD τ).loc main_arg7)
abbrev a8 (c : Dev nD) : FVec Ideal S64x64 .f32 := m ((c.tc : Thread nD τ).loc main_arg8)
abbrev a9 (c : Dev nD) : FVec Ideal S64 .f32 := m ((c.tc : Thread nD τ).loc main_arg9)
abbrev a10 (c : Dev nD) : FVec Ideal S64x64 .f32 := m ((c.tc : Thread nD τ).loc main_arg10)
abbrev a11 (c : Dev nD) : FVec Ideal S64 .f32 := m ((c.tc : Thread nD τ).loc main_arg11)

/-- What the precondition gives, on core `c`. -/
theorem pre_facts (hpre : Cert.Pre_KernelIdeal m) (c : Dev nD) :
    (∀ e : Fin 3200000, ∃ r : ℝ, a2 m c (ix1 e) = (r : EReal))
    ∧ (∀ f : Fin 64, ∃ r : ℝ, a4 m c (ix1 f) = (r : EReal))
    ∧ (∀ f : Fin 64, ∃ r : ℝ, a5 m c (ix1 f) = (r : EReal))
    ∧ (∀ (f g : Fin 64), ∃ r : ℝ, a6 m c (ix2 f g) = (r : EReal))
    ∧ (∀ g : Fin 64, ∃ r : ℝ, a7 m c (ix1 g) = (r : EReal))
    ∧ (∀ e : Fin 3200000, (a1 m c (ix2 1 e)).toNat < 100000) :=
  PreDecode.of_pre (a0 m c) (a1 m c) (a2 m c) (a3 m c) (a4 m c) (a5 m c) (a6 m c) (a7 m c) (a8 m c) (a9 m c) (a10 m c) (a11 m c) (hpre c)

/-- Region 0's output read as a vector is the reference's coefficient vector. -/
theorem coefVec_eq (hpre : Cert.Pre_KernelIdeal m) (c : Dev nD) :
    shapeCast S3200000 ((dat0 (V1 m ρ) c).arrAt 5 cfg0.N) shapeCasts_S1x3200000_S3200000
      = Cert.ReferenceIdeal.Read.val_main_v43 (F := Ideal) (a2 m c) (a4 m c) (a5 m c) (a6 m c) (a7 m c) := by
  obtain ⟨h2, h4, h5, h6, h7, -⟩ := pre_facts m hpre c
  choose d hd using h2
  choose w hw using h4
  choose b hb using h5
  choose W hW using h6
  choose β hβ using h7
  funext i
  obtain ⟨e, rfl⟩ : ∃ e : Fin 3200000, i = ix1 e := ⟨i 0, eq_ix1 i⟩
  have hout : shapeCast S3200000 ((dat0 (V1 m ρ) c).arrAt 5 cfg0.N) shapeCasts_S1x3200000_S3200000 (ix1 e)
      = Region0.outArr (V1 m ρ) c (ix2 0 e) :=
    shapeCast_1a_a_apply (a := 3200000) (Region0.outArr (V1 m ρ) c) shapeCasts_S1x3200000_S3200000 e
  rw [hout, Region0.out (V1 m ρ) c e, RefCoef.coef]
  have e_d : Region0.dist (V1 m ρ) c (ix2 0 e) = ((d e : ℝ) : EReal) := by
    show V1 m ρ c main_v6 (ix2 0 e) = _
    rw [V1_dist m ρ c]
    exact (shapeCast_a_1a_apply (a := 3200000) (a2 m c) shapeCasts_S3200000_S1x3200000 0 e).trans (hd e)
  have e_w : (fun f : Fin 64 => Region0.wIn (V1 m ρ) c (ix2 f 0)) = fun f => ((w f : ℝ) : EReal) := funext fun f => by
    show V1 m ρ c main_v7 (ix2 f 0) = _
    rw [V1_wIn m ρ c]
    exact (Layout.col_apply (a4 m c) shapeCasts_S64_S64x1 f 0).trans (hw f)
  have e_b : (fun f : Fin 64 => Region0.bIn (V1 m ρ) c (ix2 f 0)) = fun f => ((b f : ℝ) : EReal) := funext fun f => by
    show V1 m ρ c main_v8 (ix2 f 0) = _
    rw [V1_bIn m ρ c]
    exact (Layout.col_apply (a5 m c) shapeCasts_S64_S64x1 f 0).trans (hb f)
  have e_W : (fun f : Fin 64 => Region0.wSum (V1 m ρ) c (ix2 f 0)) = fun f => ∑ g : Fin 64, ((W f g : ℝ) : EReal) := funext fun f => by
    have h1 : Region0.wSum (V1 m ρ) c (ix2 f 0) = ∑ g : Fin 64, a6 m c (ix2 f g) := by
      show V1 m ρ c main_v9 (ix2 f 0) = _
      rw [V1_wSum m ρ c]
      exact (Layout.col_apply _ shapeCasts_S64_S64x1 f 0).trans (Layout.rowSum_apply (a6 m c) f)
    have h2 : (∑ g : Fin 64, a6 m c (ix2 f g)) = ∑ g : Fin 64, ((W f g : ℝ) : EReal) :=
      Finset.sum_congr rfl fun g _ => hW f g
    exact h1.trans h2
  have e_β : Region0.bSum (V1 m ρ) c (ix2 0 0) = ∑ g : Fin 64, ((β g : ℝ) : EReal) := by
    have h1 : Region0.bSum (V1 m ρ) c (ix2 0 0) = ∑ g : Fin 64, a7 m c (ix1 g) := by
      show V1 m ρ c main_v10 (ix2 0 0) = _
      rw [V1_bSum m ρ c]
      exact (Layout.scalar_apply _ shapeCasts_S_S1x1 0 0).trans (Layout.vecSum_apply (a7 m c))
    have h2 : (∑ g : Fin 64, a7 m c (ix1 g)) = ∑ g : Fin 64, ((β g : ℝ) : EReal) :=
      Finset.sum_congr rfl fun g _ => hβ g
    exact h1.trans h2
  rw [e_d, e_w, e_b, e_W, e_β]
  have r_d : a2 m c (ix1 e) = ((d e : ℝ) : EReal) := hd e
  have r_w : (fun f : Fin 64 => a4 m c (ix1 f)) = fun f => ((w f : ℝ) : EReal) := funext hw
  have r_b : (fun f : Fin 64 => a5 m c (ix1 f)) = fun f => ((b f : ℝ) : EReal) := funext hb
  have r_W : (fun f g : Fin 64 => a6 m c (ix2 f g)) = fun f g => ((W f g : ℝ) : EReal) := funext fun f => funext fun g => hW f g
  have r_β : (fun g : Fin 64 => a7 m c (ix1 g)) = fun g => ((β g : ℝ) : EReal) := funext hβ
  rw [r_d, r_w, r_b, r_W, r_β]
  exact (coef_eq (d e) w b W β).symm

/-- The aggregated messages region 1 finds are the reference's aggregated array. -/
theorem agg_eq_ref (hpre : Cert.Pre_KernelIdeal m) (c : Dev nD) :
    V5 m ρ c main_v24
      = Cert.ReferenceIdeal.Read.val_main_v54 (F := Ideal) (a0 m c) (a1 m c) (a2 m c) (a4 m c) (a5 m c) (a6 m c) (a7 m c) := by
  have hr := (pre_facts m hpre c).2.2.2.2.2
  rw [V5_agg m ρ c]
  show scattered (asCol (wrap (edgeRow0 (a1 m c)))) (mulf (taken (a0 m c) (asCol (wrap (edgeRow1 (a1 m c))))) (alongCols _)) = _
  rw [taken_eq_gathered (a0 m c) (a1 m c) hr, coefVec_eq m ρ hpre c]
  exact AggBridge.agg_eq (a0 m c) (a1 m c) (a2 m c) (a4 m c) (a5 m c) (a6 m c) (a7 m c)

/-- The kernel program's result array is the reference's result term of the same arguments. -/
theorem result_eq (hpre : Cert.Pre_KernelIdeal m) (c : Dev nD) :
    Cert.ReferenceIdeal.Read.val_main_v63 (F := Ideal) (a0 m c) (a1 m c) (a2 m c) (a4 m c) (a5 m c) (a6 m c) (a7 m c)
        (a8 m c) (a9 m c) (a10 m c) (a11 m c)
      = W6 m ρ c (Proc.devRef .tc main_v27) := by
  have hK : W6 m ρ c (Proc.devRef .tc main_v27) = Region1.outArr (V5 m ρ) c := W6_arr m ρ c 5
  rw [hK]
  funext i
  obtain ⟨n, j, rfl⟩ : ∃ (n : Fin 100000) (j : Fin 64), i = ix2 n j := ⟨i 0, i 1, eq_ix2 i⟩
  rw [RefTail.tail, Region1.out (V5 m ρ) c n j]
  have e_agg : Region1.agg (V5 m ρ) c = Cert.ReferenceIdeal.Read.val_main_v54 (F := Ideal) (a0 m c) (a1 m c) (a2 m c) (a4 m c) (a5 m c) (a6 m c) (a7 m c) :=
    agg_eq_ref m ρ hpre c
  have e_A : Region1.matA (V5 m ρ) c = a8 m c := V5_matA m ρ c
  have e_B : Region1.matB (V5 m ρ) c = a10 m c := V5_matB m ρ c
  have e_p : (fun k : Fin 64 => Region1.rowP (V5 m ρ) c (ix2 0 k)) = fun k => a9 m c (ix1 k) := funext fun k => by
    show V5 m ρ c main_v25 (ix2 0 k) = _
    rw [V5_rowP m ρ c]
    exact shapeCast_a_1a_apply (a := 64) (a9 m c) shapeCasts_S64_S1x64 0 k
  have e_q : (fun k : Fin 64 => Region1.rowQ (V5 m ρ) c (ix2 0 k)) = fun k => a11 m c (ix1 k) := funext fun k => by
    show V5 m ρ c main_v26 (ix2 0 k) = _
    rw [V5_rowQ m ρ c]
    exact shapeCast_a_1a_apply (a := 64) (a11 m c) shapeCasts_S64_S1x64 0 k
  rw [e_agg, e_A, e_B, e_p, e_q]

end Cert.Cfc.Bridge

end
-- ==== Proof.lean ====
/-
  A continuous-filter convolution layer, kernel against reference, over the extended reals.

  Per edge at distance d both programs form the filter network's hidden units tanh((0.4·d − 1)·a_f + b_f) and the
  cosine cutoff c(d). The reference applies the second filter layer, multiplies by c(d) and sums over the output
  filters; the kernel's first region takes one inner product against the second layer's row sums, adds the summed
  bias and multiplies by c(d). On finite data these are one number: the sums over hidden units and output filters
  commute and c(d) distributes over the sum. Both programs then multiply the source node's feature row by that
  coefficient and scatter-add at the target node; the kernel's program reads the source row through a take that
  returns a fill row for a node number outside [0, 100000), which the precondition excludes. On the aggregated rows
  both apply softplus(agg·A + p)·B + q, the kernel's second region block by block over the nodes, the reference as
  two host matrix products; entry by entry these are the same finite sums.

  The three frames are the generated ones (the reference's is its run with the result dropped); the idealization
  rewrote nothing, so there is nothing to preserve; the value claim names the kernel program's result as what its
  second region leaves in its output array and shows the reference's result term equal to it.
-/
import proofs.«406212_j60361470378647_2_alg».proof.Defs
import proofs.«406212_j60361470378647_2_alg».proof.Proof.Gen.Kernel
import proofs.«406212_j60361470378647_2_alg».proof.Proof.Gen.Kernel.Frame
import proofs.«406212_j60361470378647_2_alg».proof.Proof.Gen.KernelIdeal
import proofs.«406212_j60361470378647_2_alg».proof.Proof.Gen.KernelIdeal.Frame
import proofs.«406212_j60361470378647_2_alg».proof.Proof.Gen.ReferenceIdeal
import proofs.«406212_j60361470378647_2_alg».proof.Proof.Gen.ReferenceIdeal.Run
import proofs.«406212_j60361470378647_2_alg».proof.Proof.Gen.ReferenceIdeal.Read
import proofs.«406212_j60361470378647_2_alg».proof.Proof.Gen.Pre_finite_inputs
import proofs.«406212_j60361470378647_2_alg».proof.Proof.KRun
import proofs.«406212_j60361470378647_2_alg».proof.Proof.Bridge

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run, and the reference's result is what the kernel program's second region leaves in its output
    array. -/
theorem algebraic : Cert.algebraic_KernelIdeal_ReferenceIdeal := by
  intro m ρ m' ρ' hpre hagree
  refine ⟨fun c => Cert.KernelIdeal.Gen.W6 m ρ c (Proc.devRef .tc Cert.KernelIdeal.main_v27),
    Cert.KernelIdeal.Run.run_out m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq]
  obtain ⟨h0, h1, h2, h3, h4, h5, h6, h7, h8, h9, h10, h11⟩ := hagree c
  rw [h0, h1, h2, h4, h5, h6, h7, h8, h9, h10, h11]
  exact Cert.Cfc.Bridge.result_eq m ρ hpre c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
